-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x1600000 : Shape := ⟨2, ![2, 1600000]⟩
abbrev S9x64 : Shape := ⟨2, ![9, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x9 .f32) (main_arg1 : IVec S2x1600000 32) (main_arg2 : FVec F S9x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S9x64 .f32 := Host.absf main_arg2
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x9 : Shape := ⟨2, ![100000, 9]⟩
abbrev S2x1600000 : Shape := ⟨2, ![2, 1600000]⟩
abbrev S9x64 : Shape := ⟨2, ![9, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x9 : Shape := ⟨2, ![10000, 9]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩
abbrev S1x1 : Shape := ⟨2, ![1, 1]⟩

abbrev nBuf : Space → Nat
  | .hbm => 93
  | .vmem => 20
  | .smem => 0
  | _ => 0

abbrev bufTy : (tb : Table) → Fin (tcTables nBuf tb) → BufTy
  | .hbm, ⟨0, _⟩ => ⟨S100000x9, .f32⟩
  | .hbm, ⟨1, _⟩ => ⟨S2x1600000, .i32⟩
  | .hbm, ⟨2, _⟩ => ⟨S9x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x32, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x32, .f32⟩
  | .hbm, ⟨77, _⟩ => ⟨S1700000x1, .f32⟩
  | .hbm, ⟨78, _⟩ => ⟨S1700000x32, .f32⟩
  | .hbm, ⟨79, _⟩ => ⟨S1700000x32, .f32⟩
  | .hbm, ⟨80, _⟩ => ⟨S_, .f32⟩
  | .hbm, ⟨81, _⟩ => ⟨S100000x32, .f32⟩
  | .hbm, ⟨82, _⟩ => ⟨S1700000x1, .i32⟩
  | .hbm, ⟨83, _⟩ => ⟨S100000x32, .f32⟩
  | .hbm, ⟨84, _⟩ => ⟨S1x32, .f32⟩
  | .hbm, ⟨85, _⟩ => ⟨S1x32, .f32⟩
  | .hbm, ⟨86, _⟩ => ⟨S_, .f32⟩
  | .hbm, ⟨87, _⟩ => ⟨S1x32, .f32⟩
  | .hbm, ⟨88, _⟩ => ⟨S1x32, .f32⟩
  | .hbm, ⟨89, _⟩ => ⟨S1x1, .f32⟩
  | .hbm, ⟨90, _⟩ => ⟨S1x1, .f32⟩
  | .hbm, ⟨91, _⟩ => ⟨S1x1, .f32⟩
  | .hbm, ⟨92, _⟩ => ⟨S1, .f32⟩
  | .local _ .vmem, ⟨0, _⟩ => ⟨S10000x9, .f32⟩
  | .local _ .vmem, ⟨1, _⟩ => ⟨S10000x9, .f32⟩
  | .local _ .vmem, ⟨2, _⟩ => ⟨S9x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S1x32, .f32⟩
  | .local _ .vmem, ⟨19, _⟩ => ⟨S1x32, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x9_S10000x9_0_0 : ∀ a, (![0, 0] : Fin 2 → Nat) a + S10000x9.size a ≤ S10000x9.size a
  h_S10000x9 : 0 < S10000x9.numel
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S10000x32_S10000x32 : S10000x32.ShapeCasts S10000x32
  broadcasts_S1x32_S10000x32 : S1x32.Broadcasts S10000x32
  reduces_S10000x32_S32 : S10000x32.Reduces [0] S32
  bcast_S_S1x32 : S_.BroadcastsInDim S1x32 (![] : Fin 0 → Fin S1x32.rank)
  bcast_S1_S1x1_1 : S1.BroadcastsInDim S1x1 (![1] : Fin 1 → Fin S1x1.rank)
  shapeCasts_S1x1_S1 : S1x1.ShapeCasts S1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x9_S9x64_S10000x64_1_0_0_1_n_n_wf : DotDims.WF S10000x9 S9x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S1x32_S32x1_S1x1_1_0_0_1_n_n_wf : DotDims.WF S1x32 S32x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x9.size a ≤ S100000x9.size a
  hwx0_0 : ∀ i : grid0.Coords, EltTy.bits .f32 = 32 ∨ (Rect.block (s := S100000x9) S10000x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64.size a ≤ S9x64.size a
  hwx0_1 : ∀ i : grid0.Coords, EltTy.bits .f32 = 32 ∨ (Rect.block (s := S9x64) S9x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x9_S9x64_S10000x64_1_0_0_1_n_n : DotDims S10000x9 S9x64 S10000x64 where
  lhsContracting := [1]
  rhsContracting := [0]
  lhsNonContracting := [0]
  rhsNonContracting := [1]
  lhsBatch := []
  rhsBatch := []
  wf := dot_S10000x9_S9x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

abbrev win0_0 : Pipeline.Window sig grid0 :=
  Pipeline.Window.ofSpec (Memref.whole main_arg0) S10000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S9x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x32.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x9 : Shape := ⟨2, ![100000, 9]⟩
abbrev S2x1600000 : Shape := ⟨2, ![2, 1600000]⟩
abbrev S9x64 : Shape := ⟨2, ![9, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S100000x9, .f32⟩
  | 1 => ⟨S2x1600000, .i32⟩
  | 2 => ⟨S9x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x32, .f32⟩
  | 72 => ⟨S100000, .i32⟩
  | 73 => ⟨S1700000, .i32⟩
  | 74 => ⟨S1700000, .i32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x32, .f32⟩
  | 117 => ⟨S1700000x1, .f32⟩
  | 118 => ⟨S1700000x32, .f32⟩
  | 119 => ⟨S1700000x32, .f32⟩
  | 120 => ⟨S_, .f32⟩
  | 121 => ⟨S100000x32, .f32⟩
  | 122 => ⟨S1700000x1, .i32⟩
  | 123 => ⟨S100000x32, .f32⟩
  | 124 => ⟨S1x32, .f32⟩
  | 125 => ⟨S100000x32, .f32⟩
  | 126 => ⟨S100000x32, .f32⟩
  | 127 => ⟨S_, .f32⟩
  | _ => ⟨S100000x9, .f32⟩

abbrev hbmTy0_1 (i : Nat) : BufTy := match i % 128 with
  | 0 => ⟨S100000x32, .f32⟩
  | 1 => ⟨S100000x32, .f32⟩
  | 2 => ⟨S_, .f32⟩
  | 3 => ⟨S32, .f32⟩
  | 4 => ⟨S1x32, .f32⟩
  | 5 => ⟨S_, .f32⟩
  | 6 => ⟨S1x32, .f32⟩
  | 7 => ⟨S1x32, .f32⟩
  | 8 => ⟨S1x1, .f32⟩
  | 9 => ⟨S1x1, .f32⟩
  | 10 => ⟨S1x1, .f32⟩
  | 11 => ⟨S1, .f32⟩
  | _ => ⟨S100000x9, .f32⟩

abbrev hbmTy (i : Nat) : BufTy := match i / 128 with
  | 0 => hbmTy0_0 i
  | 1 => hbmTy0_1 i
  | _ => ⟨S100000x9, .f32⟩

abbrev bufTy : (tb : Table) → Fin (tcTables nBuf tb) → BufTy
  | .hbm, ⟨i, _⟩ => hbmTy i
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_cst_20 : Ref sig .tc := ⟨.hbm, 130, rfl⟩
abbrev main_v92 : Ref sig .tc := ⟨.hbm, 131, rfl⟩
abbrev main_v93 : Ref sig .tc := ⟨.hbm, 132, rfl⟩
abbrev main_cst_21 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S1x32 : S_.BroadcastsInDim S1x32 (![] : Fin 0 → Fin S1x32.rank)
  bcast_S1_S1x1_1 : S1.BroadcastsInDim S1x1 (![1] : Fin 1 → Fin S1x1.rank)
  shapeCasts_S1x1_S1 : S1x1.ShapeCasts S1
  dot_S100000x9_S9x64_S100000x64_1_0_0_1_n_n_wf : DotDims.WF S100000x9 S9x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S1x32_S32x1_S1x1_1_0_0_1_n_n_wf : DotDims.WF S1x32 S32x1 S1x1 [1] [0] [0] [1] [] []

variable [Facts₀]

def dot_S100000x9_S9x64_S100000x64_1_0_0_1_n_n : DotDims S100000x9 S9x64 S100000x64 where
  lhsContracting := [1]
  rhsContracting := [0]
  lhsNonContracting := [0]
  rhsNonContracting := [1]
  lhsBatch := []
  rhsBatch := []
  wf := dot_S100000x9_S9x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

class Facts : Prop extends Facts₀ where

variable [Facts]
-- ==== Proof.K.Reg0.lean ====
/-
  Region 0 of the program (the pallas_call `cc0__linear_kernel`), at the contents `V` its operands hold when it is entered.
  Window 0 is the row block of the left operand (10000 rows per grid point), window 1 the whole right operand (one block,
  the same at every point), window 2 the row block of the result. The body loads both inputs whole, computes, and stores the
  result block whole; so after the body the result's staging buffer is one piece covering it, a function of the two input
  blocks alone. The proof data name that piece, the body's triple is run symbolically, and the obligation of the pipeline
  follows at every grid point.
-/
import proofs.«155399_j9225589751902_1_alg».proof.Proof.Gen.Kernel.Launch
import proofs.«155399_j9225589751902_1_alg».proof.Proof.Gen.Kernel.Skeleton
import proofs.«155399_j9225589751902_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left operand is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-- The whole of each buffer, as the rectangle the body's loads and its store name. -/
abbrev r0_0 : Rect S10000x9 := Rect.unit (s := S10000x9) ![0, 0] S10000x9.size inb_S10000x9_S10000x9_0_0
abbrev r0_1 : Rect S9x64 := Rect.unit (s := S9x64) ![0, 0] S9x64.size inb_S9x64_S9x64_0_0
abbrev r0_2 : Rect S10000x64 := Rect.unit (s := S10000x64) ![0, 0] S10000x64.size inb_S10000x64_S10000x64_0_0

/-- The result's staging buffer after the body: its one store, a piece over the whole buffer. -/
def out0_2 (x0 : Vec F S10000x9 .f32) (x1 : Vec F S9x64 .f32) : Vec F S10000x64 .f32 :=
  View.canon [⟨r0_2, k0_pay1 (View.ld x0 r0_0) (View.ld x1 r0_1)⟩]

/-- That store covers the buffer. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
/-- The body on whole staging buffers: the inputs are left as found, the result's buffer ends at `out0_2` of them. -/
theorem sound_kernel0 (c : Dev nD) (E : Set ℕ) (i : grid0.Coords) (arg0 : Memref sig .tc .vmem S10000x9 .f32) (harg0 : arg0.IsWhole) (arg1 : Memref sig .tc .vmem S9x64 .f32) (harg1 : arg1.IsWhole)
    (arg2 : Memref sig .tc .vmem S10000x64 .f32) (harg2 : arg2.IsWhole)
    (x0 : Vec F S10000x9 .f32) (x1 : Vec F S9x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

section
variable (V : (c : Dev nD) → (b : Ref sig .tc) → Buf (Elt F) ((c : Thread nD τ).loc b))

/-- The proof data of pipeline 0 on core `c`: the arrays as the region finds them; after the body each input's
    buffer at its block and the result's at `out0_2` of the two input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.Reg1.lean ====
/-
  Region 1 of the program (the pallas_call `cc1__bias_relu_kernel`), at the contents `V` its operands hold when it is entered.
  Window 0 is the row block of the left operand (10000 rows per grid point), window 1 the whole right operand (one block,
  the same at every point), window 2 the row block of the result. The body loads both inputs whole, computes, and stores the
  result block whole; so after the body the result's staging buffer is one piece covering it, a function of the two input
  blocks alone. The proof data name that piece, the body's triple is run symbolically, and the obligation of the pipeline
  follows at every grid point.
-/
import proofs.«155399_j9225589751902_1_alg».proof.Proof.Gen.Kernel.Launch
import proofs.«155399_j9225589751902_1_alg».proof.Proof.Gen.Kernel.Skeleton
import proofs.«155399_j9225589751902_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the left operand is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand, fetched once, is in its staging buffer at every point: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-- The whole of each buffer, as the rectangle the body's loads and its store name. -/
abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0
abbrev r1_2 : Rect S10000x64 := Rect.unit (s := S10000x64) ![0, 0] S10000x64.size inb_S10000x64_S10000x64_0_0

/-- The result's staging buffer after the body: its one store, a piece over the whole buffer. -/
def out1_2 (x0 : Vec F S10000x64 .f32) (x1 : Vec F S1x64 .f32) : Vec F S10000x64 .f32 :=
  View.canon [⟨r1_2, k1_pay1 (View.ld x0 r1_0) (View.ld x1 r1_1)⟩]

/-- That store covers the buffer. -/
theorem cover1_2 (p0 : Vec F S10000x64 .f32) (y : S10000x64.Idx) :
    ∃ pc ∈ ([⟨r1_2, p0⟩] : List (View.Piece (Elt F) S10000x64 .f32)), y ∈ pc.1.set :=
  View.cover_of_tiled [⟨r1_2, p0⟩] S10000x64.size (by rfl) y

set_option maxHeartbeats 1000000 in
/-- The body on whole staging buffers: the inputs are left as found, the result's buffer ends at `out1_2` of them. -/
theorem sound_kernel1 (c : Dev nD) (E : Set ℕ) (i : grid1.Coords) (arg0 : Memref sig .tc .vmem S10000x64 .f32) (harg0 : arg0.IsWhole) (arg1 : Memref sig .tc .vmem S1x64 .f32) (harg1 : arg1.IsWhole)
    (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__bias_relu_kernel i arg0 harg0 arg1 harg1 arg2 harg2) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

section
variable (V : (c : Dev nD) → (b : Ref sig .tc) → Buf (Elt F) ((c : Thread nD τ).loc b))

/-- The proof data of pipeline 1 on core `c`: the arrays as the region finds them; after the body each input's
    buffer at its block and the result's at `out1_2` of the two input blocks; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Reg2.lean ====
/-
  Region 2 of the program (the pallas_call `cc2__linear_kernel`), at the contents `V` its operands hold when it is entered.
  Window 0 is the row block of the left operand (10000 rows per grid point), window 1 the whole right operand (one block,
  the same at every point), window 2 the row block of the result. The body loads both inputs whole, computes, and stores the
  result block whole; so after the body the result's staging buffer is one piece covering it, a function of the two input
  blocks alone. The proof data name that piece, the body's triple is run symbolically, and the obligation of the pipeline
  follows at every grid point.
-/
import proofs.«155399_j9225589751902_1_alg».proof.Proof.Gen.Kernel.Launch
import proofs.«155399_j9225589751902_1_alg».proof.Proof.Gen.Kernel.Skeleton
import proofs.«155399_j9225589751902_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the left operand is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand, fetched once, is in its staging buffer at every point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end

/-- The whole of each buffer, as the rectangle the body's loads and its store name. -/
abbrev r2_0 : Rect S10000x64 := Rect.unit (s := S10000x64) ![0, 0] S10000x64.size inb_S10000x64_S10000x64_0_0
abbrev r2_1 : Rect S64x32 := Rect.unit (s := S64x32) ![0, 0] S64x32.size inb_S64x32_S64x32_0_0
abbrev r2_2 : Rect S10000x32 := Rect.unit (s := S10000x32) ![0, 0] S10000x32.size inb_S10000x32_S10000x32_0_0

/-- The result's staging buffer after the body: its one store, a piece over the whole buffer. -/
def out2_2 (x0 : Vec F S10000x64 .f32) (x1 : Vec F S64x32 .f32) : Vec F S10000x32 .f32 :=
  View.canon [⟨r2_2, k2_pay1 (View.ld x0 r2_0) (View.ld x1 r2_1)⟩]

/-- That store covers the buffer. -/
theorem cover2_2 (p0 : Vec F S10000x32 .f32) (y : S10000x32.Idx) :
    ∃ pc ∈ ([⟨r2_2, p0⟩] : List (View.Piece (Elt F) S10000x32 .f32)), y ∈ pc.1.set :=
  View.cover_of_tiled [⟨r2_2, p0⟩] S10000x32.size (by rfl) y

set_option maxHeartbeats 1000000 in
/-- The body on whole staging buffers: the inputs are left as found, the result's buffer ends at `out2_2` of them. -/
theorem sound_kernel2 (c : Dev nD) (E : Set ℕ) (i : grid2.Coords) (arg0 : Memref sig .tc .vmem S10000x64 .f32) (harg0 : arg0.IsWhole) (arg1 : Memref sig .tc .vmem S64x32 .f32) (harg1 : arg1.IsWhole)
    (arg2 : Memref sig .tc .vmem S10000x32 .f32) (harg2 : arg2.IsWhole)
    (x0 : Vec F S10000x64 .f32) (x1 : Vec F S64x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

section
variable (V : (c : Dev nD) → (b : Ref sig .tc) → Buf (Elt F) ((c : Thread nD τ).loc b))

/-- The proof data of pipeline 2 on core `c`: the arrays as the region finds them; after the body each input's
    buffer at its block and the result's at `out2_2` of the two input blocks; nothing carried between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.K.Reg3.lean ====
/-
  Region 3 of the program (the pallas_call `cc3__bias_relu_sum_kernel`), at the contents `V` its operands hold when it is
  entered. Window 0 is the row block of the left operand (10000 rows per grid point), window 1 the one row of the right
  operand (one block, the same at every point), window 2 the one row of the result, written back after the last point only.
  Beside them the body keeps a one-row scratch accumulator that lives from point to point: at the first point it is
  set to zero, at every point the column sums of max(a + b, 0) over the point's row block are added to it, and the result's
  staging buffer receives a copy of it. So after the body at point n both the scratch and the result's buffer hold the same
  row, defined by recursion on n (`acc3`). The region invariant says so of the scratch; the body's triple is run symbolically
  in its two cases (first point, later point), and the pipeline's obligation follows at every grid point.
-/
import proofs.«155399_j9225589751902_1_alg».proof.Proof.Gen.Kernel.Launch
import proofs.«155399_j9225589751902_1_alg».proof.Proof.Gen.Kernel.Skeleton
import proofs.«155399_j9225589751902_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of the left operand is in its staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right operand's row, fetched once, is in its staging buffer at every point: its block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end

/-! ## The body on whole buffers -/

/-- The offsets of every access of the body: zero on both axes. -/
theorem zero_off0 : (![0, 0] : Fin S10000x32.rank → Nat) = fun _ => 0 := funext fun a => by fin_cases a <;> rfl
theorem zero_off1 : (![0, 0] : Fin S1x32.rank → Nat) = fun _ => 0 := funext fun a => by fin_cases a <;> rfl

/-- After a list of stores whose LAST one fills the whole buffer, the buffer reads that store's payload. -/
theorem read_writes_last_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- A load of the whole buffer after such a list of stores reads that payload too. -/
theorem readCov_last_whole {sg : RefSig} {κ : Kind} {sp : Space} {S : Shape} {e : EltTy} (v : View sg κ sp S e)
    {off : Fin S.rank → Nat} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩), View.canon_cons_unit_zero h,
    View.ld_unit_zero h]

/-- The condition of the body's one `scf.if`, from the grid coordinate: "this is the first point". -/
abbrev cond3 (i : grid3.Coords) : Prop :=
  Scalar.cmpi .ne (Scalar.extui (Scalar.cmpi .eq (BitVec.ofNat 32 (i 0).val) 0#32)) 0#32 = 1#1

/-- It holds at point 0 and nowhere else: decided over the ten points. -/
theorem hcond3 : ∀ t : Fin cfg3.N, cond3 (grid3.coords t) ↔ t.val = 0 :=
  (by decide +kernel : ∀ t : Fin grid3.N, cond3 (grid3.coords t) ↔ t.val = 0)

set_option maxHeartbeats 1000000 in
/-- The body at the first point: whatever the scratch and the result's buffer held, the scratch is zeroed, the block's
    column sums are added, and both end at that row; the inputs are left as found. -/
theorem sound_kernel3_first (c : Dev nD) (E : Set ℕ) (i : grid3.Coords) (hc : cond3 i)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (x0 : Vec F S10000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (∃ s, owns (c : Thread nD τ) arg4 fullShare s)
        ∗ (iprop(owns (c : Thread nD τ) arg1 fullShare x0 ∗ owns (c : Thread nD τ) arg2 fullShare x1
            ∗ owns (c : Thread nD τ) arg3 fullShare (k3_pay2 x0 x1 k3_pay1) ∗ owns (c : Thread nD τ) arg4 fullShare (k3_pay2 x0 x1 k3_pay1)) -∗ K ⟨⟩))
      ⊢ wp frame (wpE (defs₀ (F := F)) Variants.none c none) E (cc3__bias_relu_sum_kernel i arg1 harg1 arg2 harg2 arg3 harg3 arg4 harg4) K := by
  simp only [cc3__bias_relu_sum_kernel_eq_skeleton]; unfold cc3__bias_relu_sum_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    simp only [read_writes_last_whole (F := F) (S := S1x32) _ _ zero_off1, readCov_last_whole (F := F) (S := S1x32) _ zero_off1, View.readAt_eq_ld,
      View.ld_unit_zero (S := S10000x32) zero_off0, View.ld_unit_zero (S := S1x32) zero_off1]
  iexists _; isplitr
  swap; · iexact H3
  ipureintro
  sl_unfold_words
  simp only [read_writes_last_whole (F := F) (S := S1x32) _ _ zero_off1, readCov_last_whole (F := F) (S := S1x32) _ zero_off1, View.readAt_eq_ld,
    View.ld_unit_zero (S := S10000x32) zero_off0, View.ld_unit_zero (S := S1x32) zero_off1]

set_option maxHeartbeats 1000000 in
/-- The body at a later point: the scratch holds `s`; the block's column sums are added to it, and the scratch and the
    result's buffer both end at that row; the inputs are left as found. -/
theorem sound_kernel3_later (c : Dev nD) (E : Set ℕ) (i : grid3.Coords) (hc : ¬cond3 i)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (x0 : Vec F S10000x32 .f32) (x1 : Vec F S1x32 .f32) (s : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1
            ∗ owns (c : Thread nD τ) arg3 fullShare (k3_pay2 x0 x1 s) ∗ owns (c : Thread nD τ) arg4 fullShare (k3_pay2 x0 x1 s)) -∗ K ⟨⟩))
      ⊢ wp frame (wpE (defs₀ (F := F)) Variants.none c none) E (cc3__bias_relu_sum_kernel i arg1 harg1 arg2 harg2 arg3 harg3 arg4 harg4) K := by
  simp only [cc3__bias_relu_sum_kernel_eq_skeleton]; unfold cc3__bias_relu_sum_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    simp only [read_writes_last_whole (F := F) (S := S1x32) _ _ zero_off1, readCov_last_whole (F := F) (S := S1x32) _ zero_off1, View.readAt_eq_ld,
      View.ld_unit_zero (S := S10000x32) zero_off0, View.ld_unit_zero (S := S1x32) zero_off1]
  iexists _; isplitr
  swap; · iexact H3
  ipureintro
  sl_unfold_words
  simp only [read_writes_last_whole (F := F) (S := S1x32) _ _ zero_off1, readCov_last_whole (F := F) (S := S1x32) _ zero_off1, View.readAt_eq_ld,
    View.ld_unit_zero (S := S10000x32) zero_off0, View.ld_unit_zero (S := S1x32) zero_off1]

section
variable (V : (c : Dev nD) → (b : Ref sig .tc) → Buf (Elt F) ((c : Thread nD τ).loc b))

/-- What the result's staging buffer (and the carried scratch) holds after the body at position `n`: the accumulated row.
    At the first point the body's sum over the block added to the zero row; afterwards added to what the point before left. -/
def acc3 (c : Dev nD) : (n : ℕ) → n < cfg3.N → Vec F S1x32 .f32
  | 0, hn => k3_pay2 (iblk3 V c 0 ⟨0, hn⟩) (iblk3 V c 1 ⟨0, hn⟩) k3_pay1
  | n + 1, hn => k3_pay2 (iblk3 V c 0 ⟨n + 1, hn⟩) (iblk3 V c 1 ⟨n + 1, hn⟩) (acc3 c n (Nat.lt_of_succ_lt hn))

theorem acc3_zero (c : Dev nD) (t : Fin cfg3.N) (hz : t.val = 0) :
    acc3 V c t.val t.isLt = k3_pay2 (iblk3 V c 0 t) (iblk3 V c 1 t) k3_pay1 := by
  obtain ⟨n, hn⟩ := t
  cases n with
  | zero => rfl
  | succ n => exact absurd hz (Nat.succ_ne_zero n)

theorem acc3_pos (c : Dev nD) (t : Fin cfg3.N) (hz : t.val ≠ 0) :
    acc3 V c t.val t.isLt
      = k3_pay2 (iblk3 V c 0 t) (iblk3 V c 1 t) (acc3 V c (t.val - 1) (Nat.lt_of_le_of_lt (Nat.sub_le _ _) t.isLt)) := by
  obtain ⟨n, hn⟩ := t
  cases n with
  | zero => exact absurd rfl hz
  | succ n => rfl

/-- The core's scoped buffers other than this region's staging buffers and its scratch: the other regions' staging
    buffers, each at some contents, carried through the region unopened. -/
abbrev others3 (c : Dev nD) : sProp 𝕄 :=
  Pipeline.scopedRestBut (Ix := Unit) (Name := ℕ) (U := UR sig nD τ) (Lvl := ℕ) (Val := Elt F) spec3 c [cc3_scratch0]

/-- The region invariant before position `n`: before the first point every scoped buffer at anything; afterwards the
    scratch at the row the point before left, the other scoped buffers at anything, and the generator register at some state. -/
def PhiS3 (c : Dev nD) : (n : ℕ) → n ≤ cfg3.N → sProp 𝕄
  | 0, _ => Pipeline.ΦA spec3 c
  | n + 1, hn => iprop(owns (c : Thread nD τ) (Memref.whole cc3_scratch0) fullShare (acc3 V c n hn) ∗ others3 c ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) (Memref.whole cc3_scratch0) fullShare (acc3 V c n hn) ∗ others3 c ∗ (∃ r, prngReg c r)) := rfl

theorem PhiS3_pos (c : Dev nD) (n : ℕ) (h : n ≤ cfg3.N) (hz : n ≠ 0) :
    PhiS3 V c n h = iprop(owns (c : Thread nD τ) (Memref.whole cc3_scratch0) fullShare (acc3 V c (n - 1) (by omega)) ∗ others3 c ∗ (∃ r, prngReg c r)) := by
  cases n with
  | zero => exact absurd rfl hz
  | succ n => rfl

/-- What the launch hands the region, with the scratch singled out as a memref owned at some contents. -/
theorem PhiA3_eq (c : Dev nD) :
    (Pipeline.ΦA spec3 c : sProp 𝕄)
      = iprop(((∃ d, owns (c : Thread nD τ) (Memref.whole cc3_scratch0) fullShare d) ∗ others3 c) ∗ (∃ r, prngReg c r)) := by
  unfold Pipeline.ΦA
  rw [Pipeline.scopedRest_split_of_list spec3 c [cc3_scratch0] (by decide) (by decide)]
  simp only [bigSepL_singleton, owns_whole]; try rfl

/-- The proof data of pipeline 3 on core `c`: the arrays as the region finds them; after the body each input's buffer at
    its block and the result's at the accumulated row; the invariant carries the scratch at that row. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

set_option maxHeartbeats 1000000 in
/-- The body at any point. The inputs' buffers hold their blocks; what the result's buffer held does not matter (the body
    overwrites it whole). At the first point the invariant hands over the scratch at anything and the first triple applies;
    at a later point it hands it over at the row the point before left, and the second applies. Either way the scratch goes
    back into the invariant at this point's row. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.succ = PhiS3 V c (t.val + 1) t.isLt from rfl, PhiS3_succ,
    after3_0, after3_1, after3_2]
  by_cases hz : t.val = 0
  · rw [PhiS3_castSucc V c t, PhiS3_zero V c _ _ hz, PhiA3_eq, acc3_zero V c t hz]
    iintro ⟨⟨⟨HS, HR⟩, Hg⟩, Ho, ⟨%d0, H0⟩, ⟨%d1, H1⟩, ⟨%d2, H2⟩⟩
    iapply (sound_kernel3_first c Set.univ _ ((hcond3 t).mpr hz) _ _ _ _ _ _ _ _ (iblk3 V c 0 t) (iblk3 V c 1 t) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · rw [PhiS3_castSucc V c t, PhiS3_pos V c _ _ hz, acc3_pos V c t hz]
    iintro ⟨⟨HS, HR, Hg⟩, Ho, ⟨%d0, H0⟩, ⟨%d1, H1⟩, ⟨%d2, H2⟩⟩
    iapply (sound_kernel3_later c Set.univ _ (fun h => hz ((hcond3 t).mp h)) _ _ _ _ _ _ _ _ (iblk3 V c 0 t) (iblk3 V c 1 t)
      (acc3 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives back what the launch handed over: the scratch's row is forgotten. -/
theorem hout3 (c : Dev nD) : (dat3 V c).Φ (Fin.last cfg3.N) ⊢ Pipeline.ΦA spec3 c := by
  have hN : cfg3.N ≠ 0 := by rw [show cfg3.N = 10 from N_3]; decide
  rw [show (dat3 V c).Φ (Fin.last cfg3.N) = PhiS3 V c cfg3.N (Nat.le_refl _) from rfl, PhiS3_pos V c _ _ hN, PhiA3_eq]
  iintro ⟨HS, HR, Hg⟩
  isplitl [HS HR]
  · isplitl [HS]
    · iexists _; iexact HS
    iexact HR
  iexact Hg

end

end Cert.Kernel.Hand

end
-- ==== Proof.K.Run.lean ====
/-
  The whole run of @main: six stretches of host operations and four kernel regions, in the program's order. The
  contents of core `c`'s buffers at every boundary are a fold from the launch memory: a host stretch applies its
  operations, a region replaces its arrays by what its pipeline's write-backs leave (its inputs as entered, its result
  the blocks the grid points wrote). Each region is a segment over the thread state "every unscoped buffer at the
  boundary's contents, the generator register at some state, nothing owed"; the host stretches are segments over the
  same state. The run theorem says that every weakly fair execution terminates without a fault, with every unscoped
  buffer at the last boundary's contents; the arguments are then read back through the fold to the launch memory.
-/
import proofs.«155399_j9225589751902_1_alg».proof.Proof.Gen.Kernel.Regions
import proofs.«155399_j9225589751902_1_alg».proof.Proof.K.Reg0
import proofs.«155399_j9225589751902_1_alg».proof.Proof.K.Reg1
import proofs.«155399_j9225589751902_1_alg».proof.Proof.K.Reg2
import proofs.«155399_j9225589751902_1_alg».proof.Proof.K.Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)

/-- After the host operations `hostOps0`. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- A buffer those operations do not write is left as it was. -/
theorem W1_of (c : Dev nD) (r : Ref sig .tc) (h : r ∉ hostOps0_W) : W1 m c r = W0 m c r :=
  StableHlo.after_of_writes_sub hostOps0 _ hostOps0_writes h

/-- After the host operations `hostOps0_1`. -/
abbrev W2 : Dev nD → Valuation τ sig (Elt F) := fun c => StableHlo.after hostOps0_1 (W1 m c)
abbrev E2 : (c : Dev nD) → (b : Ref sig .tc) → Buf (Elt F) ((c : Thread nD τ).loc b) := fun c b => W2 m c b
/-- A buffer those operations do not write is left as it was. -/
theorem W2_of (c : Dev nD) (r : Ref sig .tc) (h : r ∉ hostOps0_1_W) : W2 m c r = W1 m c r :=
  StableHlo.after_of_writes_sub hostOps0_1 _ hostOps0_1_writes h

/-- After the host operations `hostOps0_2`. -/
abbrev W3 : Dev nD → Valuation τ sig (Elt F) := fun c => StableHlo.after hostOps0_2 (W2 m c)
abbrev E3 : (c : Dev nD) → (b : Ref sig .tc) → Buf (Elt F) ((c : Thread nD τ).loc b) := fun c b => W3 m c b
/-- A buffer those operations do not write is left as it was. -/
theorem W3_of (c : Dev nD) (r : Ref sig .tc) (h : r ∉ hostOps0_2_W) : W3 m c r = W2 m c r :=
  StableHlo.after_of_writes_sub hostOps0_2 _ hostOps0_2_writes h

/-- After region 0: its arrays at what the pipeline leaves, every other buffer as entered. -/
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The region's input arrays are left as entered. -/
theorem W4_in0 (c : Dev nD) : W4 m c (Proc.devRef .tc (Pipeline.arrRef spec0 0)) = W3 m c (Proc.devRef .tc (Pipeline.arrRef spec0 0)) :=
  (W4_arr m c 0).trans (((dat0 (E3 m) c).arrAt_in 0 rfl _).trans (A_eq0 (E3 m) c 0))
theorem W4_in1 (c : Dev nD) : W4 m c (Proc.devRef .tc (Pipeline.arrRef spec0 1)) = W3 m c (Proc.devRef .tc (Pipeline.arrRef spec0 1)) :=
  (W4_arr m c 1).trans (((dat0 (E3 m) c).arrAt_in 1 rfl _).trans (A_eq0 (E3 m) c 1))
abbrev E4 : (c : Dev nD) → (b : Ref sig .tc) → Buf (Elt F) ((c : Thread nD τ).loc b) := fun c b => W4 m c b
theorem hF0 (c : Dev nD) (w : Fin cfg0.W) : (dat0 (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)

/-- After the host operations `hostOps1`. -/
abbrev W5 : Dev nD → Valuation τ sig (Elt F) := fun c => StableHlo.after hostOps1 (W4 m c)
abbrev E5 : (c : Dev nD) → (b : Ref sig .tc) → Buf (Elt F) ((c : Thread nD τ).loc b) := fun c b => W5 m c b
/-- A buffer those operations do not write is left as it was. -/
theorem W5_of (c : Dev nD) (r : Ref sig .tc) (h : r ∉ hostOps1_W) : W5 m c r = W4 m c r :=
  StableHlo.after_of_writes_sub hostOps1 _ hostOps1_writes h

/-- After region 1: its arrays at what the pipeline leaves, every other buffer as entered. -/
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The region's input arrays are left as entered. -/
theorem W6_in0 (c : Dev nD) : W6 m c (Proc.devRef .tc (Pipeline.arrRef spec1 0)) = W5 m c (Proc.devRef .tc (Pipeline.arrRef spec1 0)) :=
  (W6_arr m c 0).trans (((dat1 (E5 m) c).arrAt_in 0 rfl _).trans (A_eq1 (E5 m) c 0))
theorem W6_in1 (c : Dev nD) : W6 m c (Proc.devRef .tc (Pipeline.arrRef spec1 1)) = W5 m c (Proc.devRef .tc (Pipeline.arrRef spec1 1)) :=
  (W6_arr m c 1).trans (((dat1 (E5 m) c).arrAt_in 1 rfl _).trans (A_eq1 (E5 m) c 1))
abbrev E6 : (c : Dev nD) → (b : Ref sig .tc) → Buf (Elt F) ((c : Thread nD τ).loc b) := fun c b => W6 m c b
theorem hF1 (c : Dev nD) (w : Fin cfg1.W) : (dat1 (E5 m) c).arrAt w cfg1.N = E6 m c (Pipeline.arrRef spec1 w) :=
  (W6_arr m c w).symm
theorem hrest1 (c : Dev nD) : ∀ b, b ∉ Finset.univ.image (Pipeline.arrRef spec1) → E6 m c b = E5 m c b :=
  fun b hb => W6_of_ne m c b fun w e => hb (Finset.mem_image.mpr ⟨w, Finset.mem_univ _, e⟩)

/-- After region 2: its arrays at what the pipeline leaves, every other buffer as entered. -/
def W7 (c : Dev nD) : Valuation τ sig (Elt F) :=
  Pipeline.withArrays spec2 c (W6 m c) fun w => (dat2 (E6 m) c).arrAt w cfg2.N
theorem W7_arr (c : Dev nD) (w : Fin cfg2.W) :
    W7 m c (Proc.devRef .tc (Pipeline.arrRef spec2 w)) = (dat2 (E6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The region's input arrays are left as entered. -/
theorem W7_in0 (c : Dev nD) : W7 m c (Proc.devRef .tc (Pipeline.arrRef spec2 0)) = W6 m c (Proc.devRef .tc (Pipeline.arrRef spec2 0)) :=
  (W7_arr m c 0).trans (((dat2 (E6 m) c).arrAt_in 0 rfl _).trans (A_eq2 (E6 m) c 0))
theorem W7_in1 (c : Dev nD) : W7 m c (Proc.devRef .tc (Pipeline.arrRef spec2 1)) = W6 m c (Proc.devRef .tc (Pipeline.arrRef spec2 1)) :=
  (W7_arr m c 1).trans (((dat2 (E6 m) c).arrAt_in 1 rfl _).trans (A_eq2 (E6 m) c 1))
abbrev E7 : (c : Dev nD) → (b : Ref sig .tc) → Buf (Elt F) ((c : Thread nD τ).loc b) := fun c b => W7 m c b
theorem hF2 (c : Dev nD) (w : Fin cfg2.W) : (dat2 (E6 m) c).arrAt w cfg2.N = E7 m c (Pipeline.arrRef spec2 w) :=
  (W7_arr m c w).symm
theorem hrest2 (c : Dev nD) : ∀ b, b ∉ Finset.univ.image (Pipeline.arrRef spec2) → E7 m c b = E6 m c b :=
  fun b hb => W7_of_ne m c b fun w e => hb (Finset.mem_image.mpr ⟨w, Finset.mem_univ _, e⟩)

/-- After the host operations `hostOps3`. -/
abbrev W8 : Dev nD → Valuation τ sig (Elt F) := fun c => StableHlo.after hostOps3 (W7 m c)
abbrev E8 : (c : Dev nD) → (b : Ref sig .tc) → Buf (Elt F) ((c : Thread nD τ).loc b) := fun c b => W8 m c b
/-- A buffer those operations do not write is left as it was. -/
theorem W8_of (c : Dev nD) (r : Ref sig .tc) (h : r ∉ hostOps3_W) : W8 m c r = W7 m c r :=
  StableHlo.after_of_writes_sub hostOps3 _ hostOps3_writes h

/-- After region 3: its arrays at what the pipeline leaves, every other buffer as entered. -/
def W9 (c : Dev nD) : Valuation τ sig (Elt F) :=
  Pipeline.withArrays spec3 c (W8 m c) fun w => (dat3 (E8 m) c).arrAt w cfg3.N
theorem W9_arr (c : Dev nD) (w : Fin cfg3.W) :
    W9 m c (Proc.devRef .tc (Pipeline.arrRef spec3 w)) = (dat3 (E8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- The region's input arrays are left as entered. -/
theorem W9_in0 (c : Dev nD) : W9 m c (Proc.devRef .tc (Pipeline.arrRef spec3 0)) = W8 m c (Proc.devRef .tc (Pipeline.arrRef spec3 0)) :=
  (W9_arr m c 0).trans (((dat3 (E8 m) c).arrAt_in 0 rfl _).trans (A_eq3 (E8 m) c 0))
theorem W9_in1 (c : Dev nD) : W9 m c (Proc.devRef .tc (Pipeline.arrRef spec3 1)) = W8 m c (Proc.devRef .tc (Pipeline.arrRef spec3 1)) :=
  (W9_arr m c 1).trans (((dat3 (E8 m) c).arrAt_in 1 rfl _).trans (A_eq3 (E8 m) c 1))
abbrev E9 : (c : Dev nD) → (b : Ref sig .tc) → Buf (Elt F) ((c : Thread nD τ).loc b) := fun c b => W9 m c b
theorem hF3 (c : Dev nD) (w : Fin cfg3.W) : (dat3 (E8 m) c).arrAt w cfg3.N = E9 m c (Pipeline.arrRef spec3 w) :=
  (W9_arr m c w).symm
theorem hrest3 (c : Dev nD) : ∀ b, b ∉ Finset.univ.image (Pipeline.arrRef spec3) → E9 m c b = E8 m c b :=
  fun b hb => W9_of_ne m c b fun w e => hb (Finset.mem_image.mpr ⟨w, Finset.mem_univ _, e⟩)

/-- After the host operations `hostOps4`. -/
abbrev W10 : Dev nD → Valuation τ sig (Elt F) := fun c => StableHlo.after hostOps4 (W9 m c)
abbrev E10 : (c : Dev nD) → (b : Ref sig .tc) → Buf (Elt F) ((c : Thread nD τ).loc b) := fun c b => W10 m c b
/-- A buffer those operations do not write is left as it was. -/
theorem W10_of (c : Dev nD) (r : Ref sig .tc) (h : r ∉ hostOps4_W) : W10 m c r = W9 m c r :=
  StableHlo.after_of_writes_sub hostOps4 _ hostOps4_writes h

/-! ## The arguments end as launched -/

/-- `main_arg0` reaches the end as launched: no host operation writes it and no region changes it. -/
theorem W10_main_arg0 (c : Dev nD) : W10 m c (Proc.devRef .tc main_arg0) = m ((c : Thread nD τ).loc main_arg0) :=
  (W10_of m c main_arg0 (by decide)).trans <| (W9_of_ne m c main_arg0 (by decide)).trans <| (W8_of m c main_arg0 (by decide)).trans <| (W7_of_ne m c main_arg0 (by decide)).trans <| (W6_of_ne m c main_arg0 (by decide)).trans <| (W5_of m c main_arg0 (by decide)).trans <| (W4_in0 m c).trans <| (W3_of m c main_arg0 (by decide)).trans <| (W2_of m c main_arg0 (by decide)).trans <| (W1_of m c main_arg0 (by decide)).trans rfl
/-- `main_arg1` reaches the end as launched: no host operation writes it and no region changes it. -/
theorem W10_main_arg1 (c : Dev nD) : W10 m c (Proc.devRef .tc main_arg1) = m ((c : Thread nD τ).loc main_arg1) :=
  (W10_of m c main_arg1 (by decide)).trans <| (W9_of_ne m c main_arg1 (by decide)).trans <| (W8_of m c main_arg1 (by decide)).trans <| (W7_of_ne m c main_arg1 (by decide)).trans <| (W6_of_ne m c main_arg1 (by decide)).trans <| (W5_of m c main_arg1 (by decide)).trans <| (W4_of_ne m c main_arg1 (by decide)).trans <| (W3_of m c main_arg1 (by decide)).trans <| (W2_of m c main_arg1 (by decide)).trans <| (W1_of m c main_arg1 (by decide)).trans rfl
/-- `main_arg2` reaches the end as launched: no host operation writes it and no region changes it. -/
theorem W10_main_arg2 (c : Dev nD) : W10 m c (Proc.devRef .tc main_arg2) = m ((c : Thread nD τ).loc main_arg2) :=
  (W10_of m c main_arg2 (by decide)).trans <| (W9_of_ne m c main_arg2 (by decide)).trans <| (W8_of m c main_arg2 (by decide)).trans <| (W7_of_ne m c main_arg2 (by decide)).trans <| (W6_of_ne m c main_arg2 (by decide)).trans <| (W5_of m c main_arg2 (by decide)).trans <| (W4_in1 m c).trans <| (W3_of m c main_arg2 (by decide)).trans <| (W2_of m c main_arg2 (by decide)).trans <| (W1_of m c main_arg2 (by decide)).trans rfl
/-- `main_arg3` reaches the end as launched: no host operation writes it and no region changes it. -/
theorem W10_main_arg3 (c : Dev nD) : W10 m c (Proc.devRef .tc main_arg3) = m ((c : Thread nD τ).loc main_arg3) :=
  (W10_of m c main_arg3 (by decide)).trans <| (W9_of_ne m c main_arg3 (by decide)).trans <| (W8_of m c main_arg3 (by decide)).trans <| (W7_of_ne m c main_arg3 (by decide)).trans <| (W6_of_ne m c main_arg3 (by decide)).trans <| (W5_of m c main_arg3 (by decide)).trans <| (W4_of_ne m c main_arg3 (by decide)).trans <| (W3_of m c main_arg3 (by decide)).trans <| (W2_of m c main_arg3 (by decide)).trans <| (W1_of m c main_arg3 (by decide)).trans rfl
/-- `main_arg4` reaches the end as launched: no host operation writes it and no region changes it. -/
theorem W10_main_arg4 (c : Dev nD) : W10 m c (Proc.devRef .tc main_arg4) = m ((c : Thread nD τ).loc main_arg4) :=
  (W10_of m c main_arg4 (by decide)).trans <| (W9_of_ne m c main_arg4 (by decide)).trans <| (W8_of m c main_arg4 (by decide)).trans <| (W7_in1 m c).trans <| (W6_of_ne m c main_arg4 (by decide)).trans <| (W5_of m c main_arg4 (by decide)).trans <| (W4_of_ne m c main_arg4 (by decide)).trans <| (W3_of m c main_arg4 (by decide)).trans <| (W2_of m c main_arg4 (by decide)).trans <| (W1_of m c main_arg4 (by decide)).trans rfl
/-- `main_arg5` reaches the end as launched: no host operation writes it and no region changes it. -/
theorem W10_main_arg5 (c : Dev nD) : W10 m c (Proc.devRef .tc main_arg5) = m ((c : Thread nD τ).loc main_arg5) :=
  (W10_of m c main_arg5 (by decide)).trans <| (W9_of_ne m c main_arg5 (by decide)).trans <| (W8_of m c main_arg5 (by decide)).trans <| (W7_of_ne m c main_arg5 (by decide)).trans <| (W6_of_ne m c main_arg5 (by decide)).trans <| (W5_of m c main_arg5 (by decide)).trans <| (W4_of_ne m c main_arg5 (by decide)).trans <| (W3_of m c main_arg5 (by decide)).trans <| (W2_of m c main_arg5 (by decide)).trans <| (W1_of m c main_arg5 (by decide)).trans rfl
/-- `main_arg6` reaches the end as launched: no host operation writes it and no region changes it. -/
theorem W10_main_arg6 (c : Dev nD) : W10 m c (Proc.devRef .tc main_arg6) = m ((c : Thread nD τ).loc main_arg6) :=
  (W10_of m c main_arg6 (by decide)).trans <| (W9_of_ne m c main_arg6 (by decide)).trans <| (W8_of m c main_arg6 (by decide)).trans <| (W7_of_ne m c main_arg6 (by decide)).trans <| (W6_of_ne m c main_arg6 (by decide)).trans <| (W5_of m c main_arg6 (by decide)).trans <| (W4_of_ne m c main_arg6 (by decide)).trans <| (W3_of m c main_arg6 (by decide)).trans <| (W2_of m c main_arg6 (by decide)).trans <| (W1_of m c main_arg6 (by decide)).trans rfl
/-- `main_arg7` reaches the end as launched: no host operation writes it and no region changes it. -/
theorem W10_main_arg7 (c : Dev nD) : W10 m c (Proc.devRef .tc main_arg7) = m ((c : Thread nD τ).loc main_arg7) :=
  (W10_of m c main_arg7 (by decide)).trans <| (W9_of_ne m c main_arg7 (by decide)).trans <| (W8_of m c main_arg7 (by decide)).trans <| (W7_of_ne m c main_arg7 (by decide)).trans <| (W6_of_ne m c main_arg7 (by decide)).trans <| (W5_of m c main_arg7 (by decide)).trans <| (W4_of_ne m c main_arg7 (by decide)).trans <| (W3_of m c main_arg7 (by decide)).trans <| (W2_of m c main_arg7 (by decide)).trans <| (W1_of m c main_arg7 (by decide)).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
  | ⟨2, _⟩ => fun c => dat2 (E6 m) c
  | ⟨3, _⟩ => fun c => dat3 (E8 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 as a segment: entered with every unscoped buffer at the contents before it, left with the region's
    arrays at what the write-backs leave and every other buffer untouched. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with the region's
    arrays at what the write-backs leave and every other buffer untouched. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with the region's
    arrays at what the write-backs leave and every other buffer untouched. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (E6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E6 m c) (E7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the contents before it, left with the region's
    arrays at what the write-backs leave and every other buffer untouched. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (E8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (hout3 (E8 m) c).trans ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E8 m c) (E9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .host (hseg hostOps4 hostOps4_sub hostOps4_fresh (W9 m)) ]

set_option backward.isDefEq.respectTransparency.types false in
/-- THE RUN. From any memory with zero counters every weakly fair execution of @main terminates, nothing faulting,
    and any property of the final memory that follows from "every unscoped buffer of every core holds the last
    boundary's contents" holds of it. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = W10 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W10 m c) ∗ R c)
          ⊢ iprop(Tₙ m c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := hQ)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_all m ρ fun s h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c)⟩

end Cert.Kernel.Hand

end
-- ==== Proof.KI.Reg0.lean ====
/-
  Region 0 of the program (the pallas_call `cc0__linear_kernel`), at the contents `V` its operands hold when it is entered.
  Window 0 is the row block of the left operand (10000 rows per grid point), window 1 the whole right operand (one block,
  the same at every point), window 2 the row block of the result. The body loads both inputs whole, computes, and stores the
  result block whole; so after the body the result's staging buffer is one piece covering it, a function of the two input
  blocks alone. The proof data name that piece, the body's triple is run symbolically, and the obligation of the pipeline
  follows at every grid point.
-/
import proofs.«155399_j9225589751902_1_alg».proof.Proof.Gen.KernelIdeal.Launch
import proofs.«155399_j9225589751902_1_alg».proof.Proof.Gen.KernelIdeal.Skeleton
import proofs.«155399_j9225589751902_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left operand is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-- The whole of each buffer, as the rectangle the body's loads and its store name. -/
abbrev r0_0 : Rect S10000x9 := Rect.unit (s := S10000x9) ![0, 0] S10000x9.size inb_S10000x9_S10000x9_0_0
abbrev r0_1 : Rect S9x64 := Rect.unit (s := S9x64) ![0, 0] S9x64.size inb_S9x64_S9x64_0_0
abbrev r0_2 : Rect S10000x64 := Rect.unit (s := S10000x64) ![0, 0] S10000x64.size inb_S10000x64_S10000x64_0_0

/-- The result's staging buffer after the body: its one store, a piece over the whole buffer. -/
def out0_2 (x0 : Vec F S10000x9 .f32) (x1 : Vec F S9x64 .f32) : Vec F S10000x64 .f32 :=
  View.canon [⟨r0_2, k0_pay1 (View.ld x0 r0_0) (View.ld x1 r0_1)⟩]

/-- That store covers the buffer. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
/-- The body on whole staging buffers: the inputs are left as found, the result's buffer ends at `out0_2` of them. -/
theorem sound_kernel0 (c : Dev nD) (E : Set ℕ) (i : grid0.Coords) (arg0 : Memref sig .tc .vmem S10000x9 .f32) (harg0 : arg0.IsWhole) (arg1 : Memref sig .tc .vmem S9x64 .f32) (harg1 : arg1.IsWhole)
    (arg2 : Memref sig .tc .vmem S10000x64 .f32) (harg2 : arg2.IsWhole)
    (x0 : Vec F S10000x9 .f32) (x1 : Vec F S9x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

section
variable (V : (c : Dev nD) → (b : Ref sig .tc) → Buf (Elt F) ((c : Thread nD τ).loc b))

/-- The proof data of pipeline 0 on core `c`: the arrays as the region finds them; after the body each input's
    buffer at its block and the result's at `out0_2` of the two input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Reg1.lean ====
/-
  Region 1 of the program (the pallas_call `cc1__bias_relu_kernel`), at the contents `V` its operands hold when it is entered.
  Window 0 is the row block of the left operand (10000 rows per grid point), window 1 the whole right operand (one block,
  the same at every point), window 2 the row block of the result. The body loads both inputs whole, computes, and stores the
  result block whole; so after the body the result's staging buffer is one piece covering it, a function of the two input
  blocks alone. The proof data name that piece, the body's triple is run symbolically, and the obligation of the pipeline
  follows at every grid point.
-/
import proofs.«155399_j9225589751902_1_alg».proof.Proof.Gen.KernelIdeal.Launch
import proofs.«155399_j9225589751902_1_alg».proof.Proof.Gen.KernelIdeal.Skeleton
import proofs.«155399_j9225589751902_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the left operand is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand, fetched once, is in its staging buffer at every point: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-- The whole of each buffer, as the rectangle the body's loads and its store name. -/
abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0
abbrev r1_2 : Rect S10000x64 := Rect.unit (s := S10000x64) ![0, 0] S10000x64.size inb_S10000x64_S10000x64_0_0

/-- The result's staging buffer after the body: its one store, a piece over the whole buffer. -/
def out1_2 (x0 : Vec F S10000x64 .f32) (x1 : Vec F S1x64 .f32) : Vec F S10000x64 .f32 :=
  View.canon [⟨r1_2, k1_pay1 (View.ld x0 r1_0) (View.ld x1 r1_1)⟩]

/-- That store covers the buffer. -/
theorem cover1_2 (p0 : Vec F S10000x64 .f32) (y : S10000x64.Idx) :
    ∃ pc ∈ ([⟨r1_2, p0⟩] : List (View.Piece (Elt F) S10000x64 .f32)), y ∈ pc.1.set :=
  View.cover_of_tiled [⟨r1_2, p0⟩] S10000x64.size (by rfl) y

set_option maxHeartbeats 1000000 in
/-- The body on whole staging buffers: the inputs are left as found, the result's buffer ends at `out1_2` of them. -/
theorem sound_kernel1 (c : Dev nD) (E : Set ℕ) (i : grid1.Coords) (arg0 : Memref sig .tc .vmem S10000x64 .f32) (harg0 : arg0.IsWhole) (arg1 : Memref sig .tc .vmem S1x64 .f32) (harg1 : arg1.IsWhole)
    (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__bias_relu_kernel i arg0 harg0 arg1 harg1 arg2 harg2) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

section
variable (V : (c : Dev nD) → (b : Ref sig .tc) → Buf (Elt F) ((c : Thread nD τ).loc b))

/-- The proof data of pipeline 1 on core `c`: the arrays as the region finds them; after the body each input's
    buffer at its block and the result's at `out1_2` of the two input blocks; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Reg2.lean ====
/-
  Region 2 of the program (the pallas_call `cc2__linear_kernel`), at the contents `V` its operands hold when it is entered.
  Window 0 is the row block of the left operand (10000 rows per grid point), window 1 the whole right operand (one block,
  the same at every point), window 2 the row block of the result. The body loads both inputs whole, computes, and stores the
  result block whole; so after the body the result's staging buffer is one piece covering it, a function of the two input
  blocks alone. The proof data name that piece, the body's triple is run symbolically, and the obligation of the pipeline
  follows at every grid point.
-/
import proofs.«155399_j9225589751902_1_alg».proof.Proof.Gen.KernelIdeal.Launch
import proofs.«155399_j9225589751902_1_alg».proof.Proof.Gen.KernelIdeal.Skeleton
import proofs.«155399_j9225589751902_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the left operand is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand, fetched once, is in its staging buffer at every point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end

/-- The whole of each buffer, as the rectangle the body's loads and its store name. -/
abbrev r2_0 : Rect S10000x64 := Rect.unit (s := S10000x64) ![0, 0] S10000x64.size inb_S10000x64_S10000x64_0_0
abbrev r2_1 : Rect S64x32 := Rect.unit (s := S64x32) ![0, 0] S64x32.size inb_S64x32_S64x32_0_0
abbrev r2_2 : Rect S10000x32 := Rect.unit (s := S10000x32) ![0, 0] S10000x32.size inb_S10000x32_S10000x32_0_0

/-- The result's staging buffer after the body: its one store, a piece over the whole buffer. -/
def out2_2 (x0 : Vec F S10000x64 .f32) (x1 : Vec F S64x32 .f32) : Vec F S10000x32 .f32 :=
  View.canon [⟨r2_2, k2_pay1 (View.ld x0 r2_0) (View.ld x1 r2_1)⟩]

/-- That store covers the buffer. -/
theorem cover2_2 (p0 : Vec F S10000x32 .f32) (y : S10000x32.Idx) :
    ∃ pc ∈ ([⟨r2_2, p0⟩] : List (View.Piece (Elt F) S10000x32 .f32)), y ∈ pc.1.set :=
  View.cover_of_tiled [⟨r2_2, p0⟩] S10000x32.size (by rfl) y

set_option maxHeartbeats 1000000 in
/-- The body on whole staging buffers: the inputs are left as found, the result's buffer ends at `out2_2` of them. -/
theorem sound_kernel2 (c : Dev nD) (E : Set ℕ) (i : grid2.Coords) (arg0 : Memref sig .tc .vmem S10000x64 .f32) (harg0 : arg0.IsWhole) (arg1 : Memref sig .tc .vmem S64x32 .f32) (harg1 : arg1.IsWhole)
    (arg2 : Memref sig .tc .vmem S10000x32 .f32) (harg2 : arg2.IsWhole)
    (x0 : Vec F S10000x64 .f32) (x1 : Vec F S64x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

section
variable (V : (c : Dev nD) → (b : Ref sig .tc) → Buf (Elt F) ((c : Thread nD τ).loc b))

/-- The proof data of pipeline 2 on core `c`: the arrays as the region finds them; after the body each input's
    buffer at its block and the result's at `out2_2` of the two input blocks; nothing carried between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KI.Reg3.lean ====
/-
  Region 3 of the program (the pallas_call `cc3__bias_relu_sum_kernel`), at the contents `V` its operands hold when it is
  entered. Window 0 is the row block of the left operand (10000 rows per grid point), window 1 the one row of the right
  operand (one block, the same at every point), window 2 the one row of the result, written back after the last point only.
  Beside them the body keeps a one-row scratch accumulator that lives from point to point: at the first point it is
  set to zero, at every point the column sums of max(a + b, 0) over the point's row block are added to it, and the result's
  staging buffer receives a copy of it. So after the body at point n both the scratch and the result's buffer hold the same
  row, defined by recursion on n (`acc3`). The region invariant says so of the scratch; the body's triple is run symbolically
  in its two cases (first point, later point), and the pipeline's obligation follows at every grid point.
-/
import proofs.«155399_j9225589751902_1_alg».proof.Proof.Gen.KernelIdeal.Launch
import proofs.«155399_j9225589751902_1_alg».proof.Proof.Gen.KernelIdeal.Skeleton
import proofs.«155399_j9225589751902_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of the left operand is in its staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right operand's row, fetched once, is in its staging buffer at every point: its block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end

/-! ## The body on whole buffers -/

/-- The offsets of every access of the body: zero on both axes. -/
theorem zero_off0 : (![0, 0] : Fin S10000x32.rank → Nat) = fun _ => 0 := funext fun a => by fin_cases a <;> rfl
theorem zero_off1 : (![0, 0] : Fin S1x32.rank → Nat) = fun _ => 0 := funext fun a => by fin_cases a <;> rfl

/-- After a list of stores whose LAST one fills the whole buffer, the buffer reads that store's payload. -/
theorem read_writes_last_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- A load of the whole buffer after such a list of stores reads that payload too. -/
theorem readCov_last_whole {sg : RefSig} {κ : Kind} {sp : Space} {S : Shape} {e : EltTy} (v : View sg κ sp S e)
    {off : Fin S.rank → Nat} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩), View.canon_cons_unit_zero h,
    View.ld_unit_zero h]

/-- The condition of the body's one `scf.if`, from the grid coordinate: "this is the first point". -/
abbrev cond3 (i : grid3.Coords) : Prop :=
  Scalar.cmpi .ne (Scalar.extui (Scalar.cmpi .eq (BitVec.ofNat 32 (i 0).val) 0#32)) 0#32 = 1#1

/-- It holds at point 0 and nowhere else: decided over the ten points. -/
theorem hcond3 : ∀ t : Fin cfg3.N, cond3 (grid3.coords t) ↔ t.val = 0 :=
  (by decide +kernel : ∀ t : Fin grid3.N, cond3 (grid3.coords t) ↔ t.val = 0)

set_option maxHeartbeats 1000000 in
/-- The body at the first point: whatever the scratch and the result's buffer held, the scratch is zeroed, the block's
    column sums are added, and both end at that row; the inputs are left as found. -/
theorem sound_kernel3_first (c : Dev nD) (E : Set ℕ) (i : grid3.Coords) (hc : cond3 i)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (x0 : Vec F S10000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (∃ s, owns (c : Thread nD τ) arg4 fullShare s)
        ∗ (iprop(owns (c : Thread nD τ) arg1 fullShare x0 ∗ owns (c : Thread nD τ) arg2 fullShare x1
            ∗ owns (c : Thread nD τ) arg3 fullShare (k3_pay2 x0 x1 k3_pay1) ∗ owns (c : Thread nD τ) arg4 fullShare (k3_pay2 x0 x1 k3_pay1)) -∗ K ⟨⟩))
      ⊢ wp frame (wpE (defs₀ (F := F)) Variants.none c none) E (cc3__bias_relu_sum_kernel i arg1 harg1 arg2 harg2 arg3 harg3 arg4 harg4) K := by
  simp only [cc3__bias_relu_sum_kernel_eq_skeleton]; unfold cc3__bias_relu_sum_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    simp only [read_writes_last_whole (F := F) (S := S1x32) _ _ zero_off1, readCov_last_whole (F := F) (S := S1x32) _ zero_off1, View.readAt_eq_ld,
      View.ld_unit_zero (S := S10000x32) zero_off0, View.ld_unit_zero (S := S1x32) zero_off1]
  iexists _; isplitr
  swap; · iexact H3
  ipureintro
  sl_unfold_words
  simp only [read_writes_last_whole (F := F) (S := S1x32) _ _ zero_off1, readCov_last_whole (F := F) (S := S1x32) _ zero_off1, View.readAt_eq_ld,
    View.ld_unit_zero (S := S10000x32) zero_off0, View.ld_unit_zero (S := S1x32) zero_off1]

set_option maxHeartbeats 1000000 in
/-- The body at a later point: the scratch holds `s`; the block's column sums are added to it, and the scratch and the
    result's buffer both end at that row; the inputs are left as found. -/
theorem sound_kernel3_later (c : Dev nD) (E : Set ℕ) (i : grid3.Coords) (hc : ¬cond3 i)
    (arg1 : Memref sig .tc .vmem S10000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (x0 : Vec F S10000x32 .f32) (x1 : Vec F S1x32 .f32) (s : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1
            ∗ owns (c : Thread nD τ) arg3 fullShare (k3_pay2 x0 x1 s) ∗ owns (c : Thread nD τ) arg4 fullShare (k3_pay2 x0 x1 s)) -∗ K ⟨⟩))
      ⊢ wp frame (wpE (defs₀ (F := F)) Variants.none c none) E (cc3__bias_relu_sum_kernel i arg1 harg1 arg2 harg2 arg3 harg3 arg4 harg4) K := by
  simp only [cc3__bias_relu_sum_kernel_eq_skeleton]; unfold cc3__bias_relu_sum_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    simp only [read_writes_last_whole (F := F) (S := S1x32) _ _ zero_off1, readCov_last_whole (F := F) (S := S1x32) _ zero_off1, View.readAt_eq_ld,
      View.ld_unit_zero (S := S10000x32) zero_off0, View.ld_unit_zero (S := S1x32) zero_off1]
  iexists _; isplitr
  swap; · iexact H3
  ipureintro
  sl_unfold_words
  simp only [read_writes_last_whole (F := F) (S := S1x32) _ _ zero_off1, readCov_last_whole (F := F) (S := S1x32) _ zero_off1, View.readAt_eq_ld,
    View.ld_unit_zero (S := S10000x32) zero_off0, View.ld_unit_zero (S := S1x32) zero_off1]

section
variable (V : (c : Dev nD) → (b : Ref sig .tc) → Buf (Elt F) ((c : Thread nD τ).loc b))

/-- What the result's staging buffer (and the carried scratch) holds after the body at position `n`: the accumulated row.
    At the first point the body's sum over the block added to the zero row; afterwards added to what the point before left. -/
def acc3 (c : Dev nD) : (n : ℕ) → n < cfg3.N → Vec F S1x32 .f32
  | 0, hn => k3_pay2 (iblk3 V c 0 ⟨0, hn⟩) (iblk3 V c 1 ⟨0, hn⟩) k3_pay1
  | n + 1, hn => k3_pay2 (iblk3 V c 0 ⟨n + 1, hn⟩) (iblk3 V c 1 ⟨n + 1, hn⟩) (acc3 c n (Nat.lt_of_succ_lt hn))

theorem acc3_zero (c : Dev nD) (t : Fin cfg3.N) (hz : t.val = 0) :
    acc3 V c t.val t.isLt = k3_pay2 (iblk3 V c 0 t) (iblk3 V c 1 t) k3_pay1 := by
  obtain ⟨n, hn⟩ := t
  cases n with
  | zero => rfl
  | succ n => exact absurd hz (Nat.succ_ne_zero n)

theorem acc3_pos (c : Dev nD) (t : Fin cfg3.N) (hz : t.val ≠ 0) :
    acc3 V c t.val t.isLt
      = k3_pay2 (iblk3 V c 0 t) (iblk3 V c 1 t) (acc3 V c (t.val - 1) (Nat.lt_of_le_of_lt (Nat.sub_le _ _) t.isLt)) := by
  obtain ⟨n, hn⟩ := t
  cases n with
  | zero => exact absurd rfl hz
  | succ n => rfl

/-- The core's scoped buffers other than this region's staging buffers and its scratch: the other regions' staging
    buffers, each at some contents, carried through the region unopened. -/
abbrev others3 (c : Dev nD) : sProp 𝕄 :=
  Pipeline.scopedRestBut (Ix := Unit) (Name := ℕ) (U := UR sig nD τ) (Lvl := ℕ) (Val := Elt F) spec3 c [cc3_scratch0]

/-- The region invariant before position `n`: before the first point every scoped buffer at anything; afterwards the
    scratch at the row the point before left, the other scoped buffers at anything, and the generator register at some state. -/
def PhiS3 (c : Dev nD) : (n : ℕ) → n ≤ cfg3.N → sProp 𝕄
  | 0, _ => Pipeline.ΦA spec3 c
  | n + 1, hn => iprop(owns (c : Thread nD τ) (Memref.whole cc3_scratch0) fullShare (acc3 V c n hn) ∗ others3 c ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) (Memref.whole cc3_scratch0) fullShare (acc3 V c n hn) ∗ others3 c ∗ (∃ r, prngReg c r)) := rfl

theorem PhiS3_pos (c : Dev nD) (n : ℕ) (h : n ≤ cfg3.N) (hz : n ≠ 0) :
    PhiS3 V c n h = iprop(owns (c : Thread nD τ) (Memref.whole cc3_scratch0) fullShare (acc3 V c (n - 1) (by omega)) ∗ others3 c ∗ (∃ r, prngReg c r)) := by
  cases n with
  | zero => exact absurd rfl hz
  | succ n => rfl

/-- What the launch hands the region, with the scratch singled out as a memref owned at some contents. -/
theorem PhiA3_eq (c : Dev nD) :
    (Pipeline.ΦA spec3 c : sProp 𝕄)
      = iprop(((∃ d, owns (c : Thread nD τ) (Memref.whole cc3_scratch0) fullShare d) ∗ others3 c) ∗ (∃ r, prngReg c r)) := by
  unfold Pipeline.ΦA
  rw [Pipeline.scopedRest_split_of_list spec3 c [cc3_scratch0] (by decide) (by decide)]
  simp only [bigSepL_singleton, owns_whole]; try rfl

/-- The proof data of pipeline 3 on core `c`: the arrays as the region finds them; after the body each input's buffer at
    its block and the result's at the accumulated row; the invariant carries the scratch at that row. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

set_option maxHeartbeats 1000000 in
/-- The body at any point. The inputs' buffers hold their blocks; what the result's buffer held does not matter (the body
    overwrites it whole). At the first point the invariant hands over the scratch at anything and the first triple applies;
    at a later point it hands it over at the row the point before left, and the second applies. Either way the scratch goes
    back into the invariant at this point's row. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.succ = PhiS3 V c (t.val + 1) t.isLt from rfl, PhiS3_succ,
    after3_0, after3_1, after3_2]
  by_cases hz : t.val = 0
  · rw [PhiS3_castSucc V c t, PhiS3_zero V c _ _ hz, PhiA3_eq, acc3_zero V c t hz]
    iintro ⟨⟨⟨HS, HR⟩, Hg⟩, Ho, ⟨%d0, H0⟩, ⟨%d1, H1⟩, ⟨%d2, H2⟩⟩
    iapply (sound_kernel3_first c Set.univ _ ((hcond3 t).mpr hz) _ _ _ _ _ _ _ _ (iblk3 V c 0 t) (iblk3 V c 1 t) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · rw [PhiS3_castSucc V c t, PhiS3_pos V c _ _ hz, acc3_pos V c t hz]
    iintro ⟨⟨HS, HR, Hg⟩, Ho, ⟨%d0, H0⟩, ⟨%d1, H1⟩, ⟨%d2, H2⟩⟩
    iapply (sound_kernel3_later c Set.univ _ (fun h => hz ((hcond3 t).mp h)) _ _ _ _ _ _ _ _ (iblk3 V c 0 t) (iblk3 V c 1 t)
      (acc3 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives back what the launch handed over: the scratch's row is forgotten. -/
theorem hout3 (c : Dev nD) : (dat3 V c).Φ (Fin.last cfg3.N) ⊢ Pipeline.ΦA spec3 c := by
  have hN : cfg3.N ≠ 0 := by rw [show cfg3.N = 10 from N_3]; decide
  rw [show (dat3 V c).Φ (Fin.last cfg3.N) = PhiS3 V c cfg3.N (Nat.le_refl _) from rfl, PhiS3_pos V c _ _ hN, PhiA3_eq]
  iintro ⟨HS, HR, Hg⟩
  isplitl [HS HR]
  · isplitl [HS]
    · iexists _; iexact HS
    iexact HR
  iexact Hg

end

end Cert.KernelIdeal.Hand

end
-- ==== Proof.KI.Run.lean ====
/-
  The whole run of @main: six stretches of host operations and four kernel regions, in the program's order. The
  contents of core `c`'s buffers at every boundary are a fold from the launch memory: a host stretch applies its
  operations, a region replaces its arrays by what its pipeline's write-backs leave (its inputs as entered, its result
  the blocks the grid points wrote). Each region is a segment over the thread state "every unscoped buffer at the
  boundary's contents, the generator register at some state, nothing owed"; the host stretches are segments over the
  same state. The run theorem says that every weakly fair execution terminates without a fault, with every unscoped
  buffer at the last boundary's contents; the arguments are then read back through the fold to the launch memory.
-/
import proofs.«155399_j9225589751902_1_alg».proof.Proof.Gen.KernelIdeal.Regions
import proofs.«155399_j9225589751902_1_alg».proof.Proof.KI.Reg0
import proofs.«155399_j9225589751902_1_alg».proof.Proof.KI.Reg1
import proofs.«155399_j9225589751902_1_alg».proof.Proof.KI.Reg2
import proofs.«155399_j9225589751902_1_alg».proof.Proof.KI.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)

/-- After the host operations `hostOps0`. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- A buffer those operations do not write is left as it was. -/
theorem W1_of (c : Dev nD) (r : Ref sig .tc) (h : r ∉ hostOps0_W) : W1 m c r = W0 m c r :=
  StableHlo.after_of_writes_sub hostOps0 _ hostOps0_writes h

/-- After the host operations `hostOps0_1`. -/
abbrev W2 : Dev nD → Valuation τ sig (Elt F) := fun c => StableHlo.after hostOps0_1 (W1 m c)
abbrev E2 : (c : Dev nD) → (b : Ref sig .tc) → Buf (Elt F) ((c : Thread nD τ).loc b) := fun c b => W2 m c b
/-- A buffer those operations do not write is left as it was. -/
theorem W2_of (c : Dev nD) (r : Ref sig .tc) (h : r ∉ hostOps0_1_W) : W2 m c r = W1 m c r :=
  StableHlo.after_of_writes_sub hostOps0_1 _ hostOps0_1_writes h

/-- After the host operations `hostOps0_2`. -/
abbrev W3 : Dev nD → Valuation τ sig (Elt F) := fun c => StableHlo.after hostOps0_2 (W2 m c)
abbrev E3 : (c : Dev nD) → (b : Ref sig .tc) → Buf (Elt F) ((c : Thread nD τ).loc b) := fun c b => W3 m c b
/-- A buffer those operations do not write is left as it was. -/
theorem W3_of (c : Dev nD) (r : Ref sig .tc) (h : r ∉ hostOps0_2_W) : W3 m c r = W2 m c r :=
  StableHlo.after_of_writes_sub hostOps0_2 _ hostOps0_2_writes h

/-- After region 0: its arrays at what the pipeline leaves, every other buffer as entered. -/
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The region's input arrays are left as entered. -/
theorem W4_in0 (c : Dev nD) : W4 m c (Proc.devRef .tc (Pipeline.arrRef spec0 0)) = W3 m c (Proc.devRef .tc (Pipeline.arrRef spec0 0)) :=
  (W4_arr m c 0).trans (((dat0 (E3 m) c).arrAt_in 0 rfl _).trans (A_eq0 (E3 m) c 0))
theorem W4_in1 (c : Dev nD) : W4 m c (Proc.devRef .tc (Pipeline.arrRef spec0 1)) = W3 m c (Proc.devRef .tc (Pipeline.arrRef spec0 1)) :=
  (W4_arr m c 1).trans (((dat0 (E3 m) c).arrAt_in 1 rfl _).trans (A_eq0 (E3 m) c 1))
abbrev E4 : (c : Dev nD) → (b : Ref sig .tc) → Buf (Elt F) ((c : Thread nD τ).loc b) := fun c b => W4 m c b
theorem hF0 (c : Dev nD) (w : Fin cfg0.W) : (dat0 (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)

/-- After the host operations `hostOps1`. -/
abbrev W5 : Dev nD → Valuation τ sig (Elt F) := fun c => StableHlo.after hostOps1 (W4 m c)
abbrev E5 : (c : Dev nD) → (b : Ref sig .tc) → Buf (Elt F) ((c : Thread nD τ).loc b) := fun c b => W5 m c b
/-- A buffer those operations do not write is left as it was. -/
theorem W5_of (c : Dev nD) (r : Ref sig .tc) (h : r ∉ hostOps1_W) : W5 m c r = W4 m c r :=
  StableHlo.after_of_writes_sub hostOps1 _ hostOps1_writes h

/-- After region 1: its arrays at what the pipeline leaves, every other buffer as entered. -/
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The region's input arrays are left as entered. -/
theorem W6_in0 (c : Dev nD) : W6 m c (Proc.devRef .tc (Pipeline.arrRef spec1 0)) = W5 m c (Proc.devRef .tc (Pipeline.arrRef spec1 0)) :=
  (W6_arr m c 0).trans (((dat1 (E5 m) c).arrAt_in 0 rfl _).trans (A_eq1 (E5 m) c 0))
theorem W6_in1 (c : Dev nD) : W6 m c (Proc.devRef .tc (Pipeline.arrRef spec1 1)) = W5 m c (Proc.devRef .tc (Pipeline.arrRef spec1 1)) :=
  (W6_arr m c 1).trans (((dat1 (E5 m) c).arrAt_in 1 rfl _).trans (A_eq1 (E5 m) c 1))
abbrev E6 : (c : Dev nD) → (b : Ref sig .tc) → Buf (Elt F) ((c : Thread nD τ).loc b) := fun c b => W6 m c b
theorem hF1 (c : Dev nD) (w : Fin cfg1.W) : (dat1 (E5 m) c).arrAt w cfg1.N = E6 m c (Pipeline.arrRef spec1 w) :=
  (W6_arr m c w).symm
theorem hrest1 (c : Dev nD) : ∀ b, b ∉ Finset.univ.image (Pipeline.arrRef spec1) → E6 m c b = E5 m c b :=
  fun b hb => W6_of_ne m c b fun w e => hb (Finset.mem_image.mpr ⟨w, Finset.mem_univ _, e⟩)

/-- After region 2: its arrays at what the pipeline leaves, every other buffer as entered. -/
def W7 (c : Dev nD) : Valuation τ sig (Elt F) :=
  Pipeline.withArrays spec2 c (W6 m c) fun w => (dat2 (E6 m) c).arrAt w cfg2.N
theorem W7_arr (c : Dev nD) (w : Fin cfg2.W) :
    W7 m c (Proc.devRef .tc (Pipeline.arrRef spec2 w)) = (dat2 (E6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The region's input arrays are left as entered. -/
theorem W7_in0 (c : Dev nD) : W7 m c (Proc.devRef .tc (Pipeline.arrRef spec2 0)) = W6 m c (Proc.devRef .tc (Pipeline.arrRef spec2 0)) :=
  (W7_arr m c 0).trans (((dat2 (E6 m) c).arrAt_in 0 rfl _).trans (A_eq2 (E6 m) c 0))
theorem W7_in1 (c : Dev nD) : W7 m c (Proc.devRef .tc (Pipeline.arrRef spec2 1)) = W6 m c (Proc.devRef .tc (Pipeline.arrRef spec2 1)) :=
  (W7_arr m c 1).trans (((dat2 (E6 m) c).arrAt_in 1 rfl _).trans (A_eq2 (E6 m) c 1))
abbrev E7 : (c : Dev nD) → (b : Ref sig .tc) → Buf (Elt F) ((c : Thread nD τ).loc b) := fun c b => W7 m c b
theorem hF2 (c : Dev nD) (w : Fin cfg2.W) : (dat2 (E6 m) c).arrAt w cfg2.N = E7 m c (Pipeline.arrRef spec2 w) :=
  (W7_arr m c w).symm
theorem hrest2 (c : Dev nD) : ∀ b, b ∉ Finset.univ.image (Pipeline.arrRef spec2) → E7 m c b = E6 m c b :=
  fun b hb => W7_of_ne m c b fun w e => hb (Finset.mem_image.mpr ⟨w, Finset.mem_univ _, e⟩)

/-- After the host operations `hostOps3`. -/
abbrev W8 : Dev nD → Valuation τ sig (Elt F) := fun c => StableHlo.after hostOps3 (W7 m c)
abbrev E8 : (c : Dev nD) → (b : Ref sig .tc) → Buf (Elt F) ((c : Thread nD τ).loc b) := fun c b => W8 m c b
/-- A buffer those operations do not write is left as it was. -/
theorem W8_of (c : Dev nD) (r : Ref sig .tc) (h : r ∉ hostOps3_W) : W8 m c r = W7 m c r :=
  StableHlo.after_of_writes_sub hostOps3 _ hostOps3_writes h

/-- After region 3: its arrays at what the pipeline leaves, every other buffer as entered. -/
def W9 (c : Dev nD) : Valuation τ sig (Elt F) :=
  Pipeline.withArrays spec3 c (W8 m c) fun w => (dat3 (E8 m) c).arrAt w cfg3.N
theorem W9_arr (c : Dev nD) (w : Fin cfg3.W) :
    W9 m c (Proc.devRef .tc (Pipeline.arrRef spec3 w)) = (dat3 (E8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- The region's input arrays are left as entered. -/
theorem W9_in0 (c : Dev nD) : W9 m c (Proc.devRef .tc (Pipeline.arrRef spec3 0)) = W8 m c (Proc.devRef .tc (Pipeline.arrRef spec3 0)) :=
  (W9_arr m c 0).trans (((dat3 (E8 m) c).arrAt_in 0 rfl _).trans (A_eq3 (E8 m) c 0))
theorem W9_in1 (c : Dev nD) : W9 m c (Proc.devRef .tc (Pipeline.arrRef spec3 1)) = W8 m c (Proc.devRef .tc (Pipeline.arrRef spec3 1)) :=
  (W9_arr m c 1).trans (((dat3 (E8 m) c).arrAt_in 1 rfl _).trans (A_eq3 (E8 m) c 1))
abbrev E9 : (c : Dev nD) → (b : Ref sig .tc) → Buf (Elt F) ((c : Thread nD τ).loc b) := fun c b => W9 m c b
theorem hF3 (c : Dev nD) (w : Fin cfg3.W) : (dat3 (E8 m) c).arrAt w cfg3.N = E9 m c (Pipeline.arrRef spec3 w) :=
  (W9_arr m c w).symm
theorem hrest3 (c : Dev nD) : ∀ b, b ∉ Finset.univ.image (Pipeline.arrRef spec3) → E9 m c b = E8 m c b :=
  fun b hb => W9_of_ne m c b fun w e => hb (Finset.mem_image.mpr ⟨w, Finset.mem_univ _, e⟩)

/-- After the host operations `hostOps4`. -/
abbrev W10 : Dev nD → Valuation τ sig (Elt F) := fun c => StableHlo.after hostOps4 (W9 m c)
abbrev E10 : (c : Dev nD) → (b : Ref sig .tc) → Buf (Elt F) ((c : Thread nD τ).loc b) := fun c b => W10 m c b
/-- A buffer those operations do not write is left as it was. -/
theorem W10_of (c : Dev nD) (r : Ref sig .tc) (h : r ∉ hostOps4_W) : W10 m c r = W9 m c r :=
  StableHlo.after_of_writes_sub hostOps4 _ hostOps4_writes h

/-! ## The arguments end as launched -/

/-- `main_arg0` reaches the end as launched: no host operation writes it and no region changes it. -/
theorem W10_main_arg0 (c : Dev nD) : W10 m c (Proc.devRef .tc main_arg0) = m ((c : Thread nD τ).loc main_arg0) :=
  (W10_of m c main_arg0 (by decide)).trans <| (W9_of_ne m c main_arg0 (by decide)).trans <| (W8_of m c main_arg0 (by decide)).trans <| (W7_of_ne m c main_arg0 (by decide)).trans <| (W6_of_ne m c main_arg0 (by decide)).trans <| (W5_of m c main_arg0 (by decide)).trans <| (W4_in0 m c).trans <| (W3_of m c main_arg0 (by decide)).trans <| (W2_of m c main_arg0 (by decide)).trans <| (W1_of m c main_arg0 (by decide)).trans rfl
/-- `main_arg1` reaches the end as launched: no host operation writes it and no region changes it. -/
theorem W10_main_arg1 (c : Dev nD) : W10 m c (Proc.devRef .tc main_arg1) = m ((c : Thread nD τ).loc main_arg1) :=
  (W10_of m c main_arg1 (by decide)).trans <| (W9_of_ne m c main_arg1 (by decide)).trans <| (W8_of m c main_arg1 (by decide)).trans <| (W7_of_ne m c main_arg1 (by decide)).trans <| (W6_of_ne m c main_arg1 (by decide)).trans <| (W5_of m c main_arg1 (by decide)).trans <| (W4_of_ne m c main_arg1 (by decide)).trans <| (W3_of m c main_arg1 (by decide)).trans <| (W2_of m c main_arg1 (by decide)).trans <| (W1_of m c main_arg1 (by decide)).trans rfl
/-- `main_arg2` reaches the end as launched: no host operation writes it and no region changes it. -/
theorem W10_main_arg2 (c : Dev nD) : W10 m c (Proc.devRef .tc main_arg2) = m ((c : Thread nD τ).loc main_arg2) :=
  (W10_of m c main_arg2 (by decide)).trans <| (W9_of_ne m c main_arg2 (by decide)).trans <| (W8_of m c main_arg2 (by decide)).trans <| (W7_of_ne m c main_arg2 (by decide)).trans <| (W6_of_ne m c main_arg2 (by decide)).trans <| (W5_of m c main_arg2 (by decide)).trans <| (W4_in1 m c).trans <| (W3_of m c main_arg2 (by decide)).trans <| (W2_of m c main_arg2 (by decide)).trans <| (W1_of m c main_arg2 (by decide)).trans rfl
/-- `main_arg3` reaches the end as launched: no host operation writes it and no region changes it. -/
theorem W10_main_arg3 (c : Dev nD) : W10 m c (Proc.devRef .tc main_arg3) = m ((c : Thread nD τ).loc main_arg3) :=
  (W10_of m c main_arg3 (by decide)).trans <| (W9_of_ne m c main_arg3 (by decide)).trans <| (W8_of m c main_arg3 (by decide)).trans <| (W7_of_ne m c main_arg3 (by decide)).trans <| (W6_of_ne m c main_arg3 (by decide)).trans <| (W5_of m c main_arg3 (by decide)).trans <| (W4_of_ne m c main_arg3 (by decide)).trans <| (W3_of m c main_arg3 (by decide)).trans <| (W2_of m c main_arg3 (by decide)).trans <| (W1_of m c main_arg3 (by decide)).trans rfl
/-- `main_arg4` reaches the end as launched: no host operation writes it and no region changes it. -/
theorem W10_main_arg4 (c : Dev nD) : W10 m c (Proc.devRef .tc main_arg4) = m ((c : Thread nD τ).loc main_arg4) :=
  (W10_of m c main_arg4 (by decide)).trans <| (W9_of_ne m c main_arg4 (by decide)).trans <| (W8_of m c main_arg4 (by decide)).trans <| (W7_in1 m c).trans <| (W6_of_ne m c main_arg4 (by decide)).trans <| (W5_of m c main_arg4 (by decide)).trans <| (W4_of_ne m c main_arg4 (by decide)).trans <| (W3_of m c main_arg4 (by decide)).trans <| (W2_of m c main_arg4 (by decide)).trans <| (W1_of m c main_arg4 (by decide)).trans rfl
/-- `main_arg5` reaches the end as launched: no host operation writes it and no region changes it. -/
theorem W10_main_arg5 (c : Dev nD) : W10 m c (Proc.devRef .tc main_arg5) = m ((c : Thread nD τ).loc main_arg5) :=
  (W10_of m c main_arg5 (by decide)).trans <| (W9_of_ne m c main_arg5 (by decide)).trans <| (W8_of m c main_arg5 (by decide)).trans <| (W7_of_ne m c main_arg5 (by decide)).trans <| (W6_of_ne m c main_arg5 (by decide)).trans <| (W5_of m c main_arg5 (by decide)).trans <| (W4_of_ne m c main_arg5 (by decide)).trans <| (W3_of m c main_arg5 (by decide)).trans <| (W2_of m c main_arg5 (by decide)).trans <| (W1_of m c main_arg5 (by decide)).trans rfl
/-- `main_arg6` reaches the end as launched: no host operation writes it and no region changes it. -/
theorem W10_main_arg6 (c : Dev nD) : W10 m c (Proc.devRef .tc main_arg6) = m ((c : Thread nD τ).loc main_arg6) :=
  (W10_of m c main_arg6 (by decide)).trans <| (W9_of_ne m c main_arg6 (by decide)).trans <| (W8_of m c main_arg6 (by decide)).trans <| (W7_of_ne m c main_arg6 (by decide)).trans <| (W6_of_ne m c main_arg6 (by decide)).trans <| (W5_of m c main_arg6 (by decide)).trans <| (W4_of_ne m c main_arg6 (by decide)).trans <| (W3_of m c main_arg6 (by decide)).trans <| (W2_of m c main_arg6 (by decide)).trans <| (W1_of m c main_arg6 (by decide)).trans rfl
/-- `main_arg7` reaches the end as launched: no host operation writes it and no region changes it. -/
theorem W10_main_arg7 (c : Dev nD) : W10 m c (Proc.devRef .tc main_arg7) = m ((c : Thread nD τ).loc main_arg7) :=
  (W10_of m c main_arg7 (by decide)).trans <| (W9_of_ne m c main_arg7 (by decide)).trans <| (W8_of m c main_arg7 (by decide)).trans <| (W7_of_ne m c main_arg7 (by decide)).trans <| (W6_of_ne m c main_arg7 (by decide)).trans <| (W5_of m c main_arg7 (by decide)).trans <| (W4_of_ne m c main_arg7 (by decide)).trans <| (W3_of m c main_arg7 (by decide)).trans <| (W2_of m c main_arg7 (by decide)).trans <| (W1_of m c main_arg7 (by decide)).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
  | ⟨2, _⟩ => fun c => dat2 (E6 m) c
  | ⟨3, _⟩ => fun c => dat3 (E8 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 as a segment: entered with every unscoped buffer at the contents before it, left with the region's
    arrays at what the write-backs leave and every other buffer untouched. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with the region's
    arrays at what the write-backs leave and every other buffer untouched. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with the region's
    arrays at what the write-backs leave and every other buffer untouched. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (E6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E6 m c) (E7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the contents before it, left with the region's
    arrays at what the write-backs leave and every other buffer untouched. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (E8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (hout3 (E8 m) c).trans ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E8 m c) (E9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .host (hseg hostOps4 hostOps4_sub hostOps4_fresh (W9 m)) ]

set_option backward.isDefEq.respectTransparency.types false in
/-- THE RUN. From any memory with zero counters every weakly fair execution of @main terminates, nothing faulting,
    and any property of the final memory that follows from "every unscoped buffer of every core holds the last
    boundary's contents" holds of it. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = W10 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W10 m c) ∗ R c)
          ⊢ iprop(Tₙ m c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := hQ)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_all m ρ fun s h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c)⟩

end Cert.KernelIdeal.Hand

end
-- ==== Proof.Val.Host.lean ====
/-
  The host computations of the program as functions of the values they read. Each is the composed term of the
  operations as printed: the edge endpoints with a self loop appended for every node, the symmetric normalisation of
  the edges by the in-degrees, the normalised neighbourhood sum of a feature array, the bias vectors as one-row
  arrays, and the read-out (the mean over the nodes, the last linear layer).
-/
import proofs.«155399_j9225589751902_1_alg».proof.KernelIdeal

noncomputable section

namespace Cert.HostFn

open Cert.KernelIdeal Idealize.ShloMosaic
open Cert.KernelIdeal.Facts₀

variable {F : FTy → Type} [FloatOps F] [Facts₀]

/-- An index below zero is read from the end: 100000 is added to it. -/
def wrapIdx (s : Vec F S1700000 .i32) : Vec F S1700000 .i32 :=
  select (cmpi .slt s (broadcastInDim S1700000 ![] bcast_S_S1700000 (constantI S_ 32 0#32)))
    (addi s (broadcastInDim S1700000 ![] bcast_S_S1700000 (constantI S_ 32 100000#32))) s

/-- Row `r` of the edge list followed by the node numbers 0 … 99999 (one self loop per node). -/
def endIdx (r : Nat) (h : S2x1600000.Slices ![r, 0] S1x1600000) (ei : Vec F S2x1600000 .i32) : Vec F S1700000 .i32 :=
  concatenate S1700000 0
    [⟨S1600000, shapeCast S1600000 (extractStridedSlice S1x1600000 ![r, 0] ei h) shapeCasts_S1x1600000_S1600000⟩,
     ⟨S100000, iotaInDim S100000 32 0⟩] concatenates_S1600000_S100000_S1700000_d0

/-- The source of every edge, self loops appended. -/
def srcIdx (ei : Vec F S2x1600000 .i32) : Vec F S1700000 .i32 :=
  endIdx 0 slices_S2x1600000_S1x1600000_0_0 ei

/-- The destination of every edge, self loops appended. -/
def dstIdx (ei : Vec F S2x1600000 .i32) : Vec F S1700000 .i32 :=
  endIdx 1 slices_S2x1600000_S1x1600000_1_0 ei

/-- The in-degree of every node: a one added at the destination of every edge. -/
def deg (d : Vec F S1700000 .i32) : Vec F S100000 .f32 :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 d)
    (broadcastInDim S1700000 ![] bcast_S_S1700000 (constant (F := F) S_ .f32 0x3F800000#32))

/-- The inverse square root of the in-degree where it is positive, zero elsewhere. -/
def invSqrtDeg (d : Vec F S1700000 .i32) : Vec F S100000 .f32 :=
  select (cmpf .ogt (deg d) (broadcastInDim S100000 ![] bcast_S_S100000 (constant (F := F) S_ .f32 0x00000000#32)))
    (Host.rsqrt (deg d))
    (broadcastInDim S100000 ![] bcast_S_S100000 (constant (F := F) S_ .f32 0x00000000#32))

/-- The weight of every edge from node weights `r`: the weight of its source times the weight of its destination. -/
def edgeNormOf (r : Vec F S100000 .f32) (s d : Vec F S1700000 .i32) : Vec F S1700000 .f32 :=
  mulf
    (Host.gather gather_S100000_S1700000x1_S1700000_n_0_n_n_0_1_1 r
      (broadcastInDim S1700000x1 ![0] bcast_S1700000_S1700000x1_0 (wrapIdx s)))
    (Host.gather gather_S100000_S1700000x1_S1700000_n_0_n_n_0_1_1 r
      (broadcastInDim S1700000x1 ![0] bcast_S1700000_S1700000x1_0 (wrapIdx d)))

/-- The symmetric normalisation of every edge by the in-degrees of its two ends. -/
def edgeNorm (ei : Vec F S2x1600000 .i32) : Vec F S1700000 .f32 :=
  edgeNormOf (invSqrtDeg (dstIdx ei)) (srcIdx ei) (dstIdx ei)

/-- The rows of `h` at the sources, scaled by the edge weights `w`, summed into the destinations (64 columns). -/
def agg64Of (s d : Vec F S1700000 .i32) (w : Vec F S1700000 .f32) (h : Vec F S100000x64 .f32) : Vec F S100000x64 .f32 :=
  Host.scatterAdd scatter_S100000x64_S1700000x1_S1700000x64_1_0_0_1
    (broadcastInDim S100000x64 ![] bcast_S_S100000x64 (constant (F := F) S_ .f32 0x00000000#32))
    (broadcastInDim S1700000x1 ![0] bcast_S1700000_S1700000x1_0 d)
    (mulf
      (Host.gather gather_S100000x64_S1700000x1_S1700000x64_1_0_n_n_0_1_164 h
        (broadcastInDim S1700000x1 ![0] bcast_S1700000_S1700000x1_0 (wrapIdx s)))
      (broadcastInDim S1700000x64 ![0, 1] bcast_S1700000x1_S1700000x64_0_1
        (broadcastInDim S1700000x1 ![0] bcast_S1700000_S1700000x1_0 w)))

/-- The normalised neighbourhood sum of a 64-column feature array. -/
def agg64 (ei : Vec F S2x1600000 .i32) (h : Vec F S100000x64 .f32) : Vec F S100000x64 .f32 :=
  agg64Of (srcIdx ei) (dstIdx ei) (edgeNorm ei) h

/-- The rows of `h` at the sources, scaled by the edge weights `w`, summed into the destinations (32 columns). -/
def agg32Of (s d : Vec F S1700000 .i32) (w : Vec F S1700000 .f32) (h : Vec F S100000x32 .f32) : Vec F S100000x32 .f32 :=
  Host.scatterAdd scatter_S100000x32_S1700000x1_S1700000x32_1_0_0_1
    (broadcastInDim S100000x32 ![] bcast_S_S100000x32 (constant (F := F) S_ .f32 0x00000000#32))
    (broadcastInDim S1700000x1 ![0] bcast_S1700000_S1700000x1_0 d)
    (mulf
      (Host.gather gather_S100000x32_S1700000x1_S1700000x32_1_0_n_n_0_1_132 h
        (broadcastInDim S1700000x1 ![0] bcast_S1700000_S1700000x1_0 (wrapIdx s)))
      (broadcastInDim S1700000x32 ![0, 1] bcast_S1700000x1_S1700000x32_0_1
        (broadcastInDim S1700000x1 ![0] bcast_S1700000_S1700000x1_0 w)))

/-- The normalised neighbourhood sum of a 32-column feature array. -/
def agg32 (ei : Vec F S2x1600000 .i32) (h : Vec F S100000x32 .f32) : Vec F S100000x32 .f32 :=
  agg32Of (srcIdx ei) (dstIdx ei) (edgeNorm ei) h

/-- A 64-vector as a one-row array. -/
def row64 (b : Vec F S64 .f32) : Vec F S1x64 .f32 :=
  shapeCast S1x64 b shapeCasts_S64_S1x64

/-- A 32-vector as a one-row array. -/
def row32 (b : Vec F S32 .f32) : Vec F S1x32 .f32 :=
  shapeCast S1x32 b shapeCasts_S32_S1x32

/-- The read-out: the column sums `g` divided by the number of nodes, times the last weights, plus the last bias. -/
def tailFn (g : Vec F S1x32 .f32) (wo : Vec F S32x1 .f32) (bo : Vec F S1 .f32) : Vec F S1 .f32 :=
  shapeCast S1
    (addf
      (Host.dotGeneral dot_S1x32_S32x1_S1x1_1_0_0_1_n_n none
        (Host.divf g (broadcastInDim S1x32 ![] bcast_S_S1x32 (constant (F := F) S_ .f32 0x47C35000#32))) wo)
      (broadcastInDim S1x1 ![1] bcast_S1_S1x1_1 bo))
    shapeCasts_S1x1_S1

end Cert.HostFn

end
-- ==== Proof.Val.Stages.lean ====
/-
  What the host stretches leave in the buffers the regions and the result read, as the host functions of the values
  they read: the edge endpoints and the edge weights after the first three stretches, the normalised neighbourhood
  sums and the bias rows before the second and the fourth region, the read-out after the last stretch. Each stretch
  is first read over arbitrary contents on entry, then at the contents the run has there.
-/
import proofs.«155399_j9225589751902_1_alg».proof.Proof.KI.Run
import proofs.«155399_j9225589751902_1_alg».proof.Proof.Val.Host

set_option maxRecDepth 16384

noncomputable section

namespace Cert.KernelIdeal.HandVal

open Cert.KernelIdeal Cert.KernelIdeal.Gen Cert.KernelIdeal.Hand
open Idealize.ShloMosaic Idealize.ShloMosaic.TcCoe

variable {F : FTy → Type} [FloatOps F]

/-! ## Each stretch over arbitrary contents on entry -/

section Stretch

variable (V : Valuation τ sig (Elt F))

theorem ops0_v5 :
    StableHlo.after hostOps0 V (Proc.devRef .tc main_v5) = Cert.HostFn.srcIdx (V (Proc.devRef .tc main_arg1)) := by
  after_results
  rfl

theorem ops0_v6 :
    StableHlo.after hostOps0 V (Proc.devRef .tc main_v6) = Cert.HostFn.dstIdx (V (Proc.devRef .tc main_arg1)) := by
  after_results
  rfl

theorem ops01_v14 :
    StableHlo.after hostOps0_1 (StableHlo.after hostOps0 V) (Proc.devRef .tc main_v14)
      = Cert.HostFn.invSqrtDeg (Cert.HostFn.dstIdx (V (Proc.devRef .tc main_arg1))) := by
  after_results_simp
  rfl

theorem ops2_v29 :
    StableHlo.after hostOps0_2 V (Proc.devRef .tc main_v29)
      = Cert.HostFn.edgeNormOf (V (Proc.devRef .tc main_v14)) (V (Proc.devRef .tc main_v5)) (V (Proc.devRef .tc main_v6)) := by
  after_results_simp
  rfl

theorem ops1_v43 :
    StableHlo.after hostOps1 V (Proc.devRef .tc main_v43)
      = Cert.HostFn.agg64Of (V (Proc.devRef .tc main_v5)) (V (Proc.devRef .tc main_v6)) (V (Proc.devRef .tc main_v29))
          (V (Proc.devRef .tc main_v30)) := by
  after_results_simp
  rfl

theorem ops1_v44 :
    StableHlo.after hostOps1 V (Proc.devRef .tc main_v44) = Cert.HostFn.row64 (V (Proc.devRef .tc main_arg3)) := by
  after_results
  rfl

theorem ops3_v59 :
    StableHlo.after hostOps3 V (Proc.devRef .tc main_v59)
      = Cert.HostFn.agg32Of (V (Proc.devRef .tc main_v5)) (V (Proc.devRef .tc main_v6)) (V (Proc.devRef .tc main_v29))
          (V (Proc.devRef .tc main_v46)) := by
  after_results_simp
  rfl

theorem ops3_v60 :
    StableHlo.after hostOps3 V (Proc.devRef .tc main_v60) = Cert.HostFn.row32 (V (Proc.devRef .tc main_arg5)) := by
  after_results
  rfl

theorem ops4_v67 :
    StableHlo.after hostOps4 V (Proc.devRef .tc main_v67)
      = Cert.HostFn.tailFn (V (Proc.devRef .tc main_v61)) (V (Proc.devRef .tc main_arg6)) (V (Proc.devRef .tc main_arg7)) := by
  after_results
  rfl

end Stretch

variable (m : (ℓ : Loc nD τ sig) → Buf (Elt F) ℓ)

/-! ## The arguments where they are read: as launched -/

theorem W3_arg0 (c : Dev nD) : W3 m c (Proc.devRef .tc main_arg0) = m ((c : Thread nD τ).loc main_arg0) :=
  (W3_of m c main_arg0 (by decide)).trans <| (W2_of m c main_arg0 (by decide)).trans <| (W1_of m c main_arg0 (by decide)).trans rfl
theorem W3_arg2 (c : Dev nD) : W3 m c (Proc.devRef .tc main_arg2) = m ((c : Thread nD τ).loc main_arg2) :=
  (W3_of m c main_arg2 (by decide)).trans <| (W2_of m c main_arg2 (by decide)).trans <| (W1_of m c main_arg2 (by decide)).trans rfl
theorem W4_arg3 (c : Dev nD) : W4 m c (Proc.devRef .tc main_arg3) = m ((c : Thread nD τ).loc main_arg3) :=
  (W4_of_ne m c main_arg3 (by decide)).trans <| (W3_of m c main_arg3 (by decide)).trans <| (W2_of m c main_arg3 (by decide)).trans <| (W1_of m c main_arg3 (by decide)).trans rfl
theorem W6_arg4 (c : Dev nD) : W6 m c (Proc.devRef .tc main_arg4) = m ((c : Thread nD τ).loc main_arg4) :=
  (W6_of_ne m c main_arg4 (by decide)).trans <| (W5_of m c main_arg4 (by decide)).trans <| (W4_of_ne m c main_arg4 (by decide)).trans <| (W3_of m c main_arg4 (by decide)).trans <| (W2_of m c main_arg4 (by decide)).trans <| (W1_of m c main_arg4 (by decide)).trans rfl
theorem W7_arg5 (c : Dev nD) : W7 m c (Proc.devRef .tc main_arg5) = m ((c : Thread nD τ).loc main_arg5) :=
  (W7_of_ne m c main_arg5 (by decide)).trans <| (W6_of_ne m c main_arg5 (by decide)).trans <| (W5_of m c main_arg5 (by decide)).trans <| (W4_of_ne m c main_arg5 (by decide)).trans <| (W3_of m c main_arg5 (by decide)).trans <| (W2_of m c main_arg5 (by decide)).trans <| (W1_of m c main_arg5 (by decide)).trans rfl
theorem W9_arg6 (c : Dev nD) : W9 m c (Proc.devRef .tc main_arg6) = m ((c : Thread nD τ).loc main_arg6) :=
  (W9_of_ne m c main_arg6 (by decide)).trans <| (W8_of m c main_arg6 (by decide)).trans <| (W7_of_ne m c main_arg6 (by decide)).trans <| (W6_of_ne m c main_arg6 (by decide)).trans <| (W5_of m c main_arg6 (by decide)).trans <| (W4_of_ne m c main_arg6 (by decide)).trans <| (W3_of m c main_arg6 (by decide)).trans <| (W2_of m c main_arg6 (by decide)).trans <| (W1_of m c main_arg6 (by decide)).trans rfl
theorem W9_arg7 (c : Dev nD) : W9 m c (Proc.devRef .tc main_arg7) = m ((c : Thread nD τ).loc main_arg7) :=
  (W9_of_ne m c main_arg7 (by decide)).trans <| (W8_of m c main_arg7 (by decide)).trans <| (W7_of_ne m c main_arg7 (by decide)).trans <| (W6_of_ne m c main_arg7 (by decide)).trans <| (W5_of m c main_arg7 (by decide)).trans <| (W4_of_ne m c main_arg7 (by decide)).trans <| (W3_of m c main_arg7 (by decide)).trans <| (W2_of m c main_arg7 (by decide)).trans <| (W1_of m c main_arg7 (by decide)).trans rfl

/-! ## The edge endpoints and the edge weights -/

theorem W2_v5 (c : Dev nD) : W2 m c (Proc.devRef .tc main_v5) = Cert.HostFn.srcIdx (m ((c : Thread nD τ).loc main_arg1)) :=
  (W2_of m c main_v5 (by decide)).trans (ops0_v5 (W0 m c))
theorem W2_v6 (c : Dev nD) : W2 m c (Proc.devRef .tc main_v6) = Cert.HostFn.dstIdx (m ((c : Thread nD τ).loc main_arg1)) :=
  (W2_of m c main_v6 (by decide)).trans (ops0_v6 (W0 m c))
theorem W2_v14 (c : Dev nD) :
    W2 m c (Proc.devRef .tc main_v14) = Cert.HostFn.invSqrtDeg (Cert.HostFn.dstIdx (m ((c : Thread nD τ).loc main_arg1))) :=
  ops01_v14 (W0 m c)

theorem W3_v5 (c : Dev nD) : W3 m c (Proc.devRef .tc main_v5) = Cert.HostFn.srcIdx (m ((c : Thread nD τ).loc main_arg1)) :=
  (W3_of m c main_v5 (by decide)).trans (W2_v5 m c)
theorem W3_v6 (c : Dev nD) : W3 m c (Proc.devRef .tc main_v6) = Cert.HostFn.dstIdx (m ((c : Thread nD τ).loc main_arg1)) :=
  (W3_of m c main_v6 (by decide)).trans (W2_v6 m c)
theorem W3_v29 (c : Dev nD) : W3 m c (Proc.devRef .tc main_v29) = Cert.HostFn.edgeNorm (m ((c : Thread nD τ).loc main_arg1)) :=
  (ops2_v29 (W2 m c)).trans (by rw [W2_v14 m c, W2_v5 m c, W2_v6 m c]; rfl)

/-- No later stretch and no region writes them. -/
theorem W4_v5 (c : Dev nD) : W4 m c (Proc.devRef .tc main_v5) = Cert.HostFn.srcIdx (m ((c : Thread nD τ).loc main_arg1)) :=
  (W4_of_ne m c main_v5 (by decide)).trans (W3_v5 m c)
theorem W4_v6 (c : Dev nD) : W4 m c (Proc.devRef .tc main_v6) = Cert.HostFn.dstIdx (m ((c : Thread nD τ).loc main_arg1)) :=
  (W4_of_ne m c main_v6 (by decide)).trans (W3_v6 m c)
theorem W4_v29 (c : Dev nD) : W4 m c (Proc.devRef .tc main_v29) = Cert.HostFn.edgeNorm (m ((c : Thread nD τ).loc main_arg1)) :=
  (W4_of_ne m c main_v29 (by decide)).trans (W3_v29 m c)
theorem W7_v5 (c : Dev nD) : W7 m c (Proc.devRef .tc main_v5) = Cert.HostFn.srcIdx (m ((c : Thread nD τ).loc main_arg1)) :=
  (W7_of_ne m c main_v5 (by decide)).trans <| (W6_of_ne m c main_v5 (by decide)).trans <| (W5_of m c main_v5 (by decide)).trans (W4_v5 m c)
theorem W7_v6 (c : Dev nD) : W7 m c (Proc.devRef .tc main_v6) = Cert.HostFn.dstIdx (m ((c : Thread nD τ).loc main_arg1)) :=
  (W7_of_ne m c main_v6 (by decide)).trans <| (W6_of_ne m c main_v6 (by decide)).trans <| (W5_of m c main_v6 (by decide)).trans (W4_v6 m c)
theorem W7_v29 (c : Dev nD) : W7 m c (Proc.devRef .tc main_v29) = Cert.HostFn.edgeNorm (m ((c : Thread nD τ).loc main_arg1)) :=
  (W7_of_ne m c main_v29 (by decide)).trans <| (W6_of_ne m c main_v29 (by decide)).trans <| (W5_of m c main_v29 (by decide)).trans (W4_v29 m c)

/-! ## What the second and the fourth region read, and the result -/

theorem W5_v43 (c : Dev nD) :
    W5 m c (Proc.devRef .tc main_v43)
      = Cert.HostFn.agg64 (m ((c : Thread nD τ).loc main_arg1)) (W4 m c (Proc.devRef .tc main_v30)) :=
  (ops1_v43 (W4 m c)).trans (by rw [W4_v5 m c, W4_v6 m c, W4_v29 m c]; rfl)

theorem W5_v44 (c : Dev nD) : W5 m c (Proc.devRef .tc main_v44) = Cert.HostFn.row64 (m ((c : Thread nD τ).loc main_arg3)) :=
  (ops1_v44 (W4 m c)).trans (by rw [W4_arg3 m c])

theorem W8_v59 (c : Dev nD) :
    W8 m c (Proc.devRef .tc main_v59)
      = Cert.HostFn.agg32 (m ((c : Thread nD τ).loc main_arg1)) (W7 m c (Proc.devRef .tc main_v46)) :=
  (ops3_v59 (W7 m c)).trans (by rw [W7_v5 m c, W7_v6 m c, W7_v29 m c]; rfl)

theorem W8_v60 (c : Dev nD) : W8 m c (Proc.devRef .tc main_v60) = Cert.HostFn.row32 (m ((c : Thread nD τ).loc main_arg5)) :=
  (ops3_v60 (W7 m c)).trans (by rw [W7_arg5 m c])

theorem W10_v67 (c : Dev nD) :
    W10 m c (Proc.devRef .tc main_v67)
      = Cert.HostFn.tailFn (W9 m c (Proc.devRef .tc main_v61)) (m ((c : Thread nD τ).loc main_arg6))
          (m ((c : Thread nD τ).loc main_arg7)) :=
  (ops4_v67 (W9 m c)).trans (by rw [W9_arg6 m c, W9_arg7 m c])

end Cert.KernelIdeal.HandVal

end
-- ==== Proof.Val.Spec.lean ====
/-
  The mathematics both programs compute, entry by entry over the extended reals: a matrix product as the sum over
  the contracted coordinate; a bias added along the rows and clipped below at zero; the column sums of such an array.
  Addition and multiplication on the extended reals are commutative and associative, so the order and the grouping of
  these sums do not matter, and no finiteness of the entries is needed.
-/
import Idealize.ShloMosaic.PureOps.Ideal
import Idealize.ShloMosaic.Lib.ValueIdx

noncomputable section

namespace Cert.Spec

open Idealize.ShloMosaic Idealize.ShloMosaic.ValueIdx

/-- The product of an [n, k] array with a [k, m] array: entry (i, j) is the sum over q of x(i, q) · w(q, j). -/
def lin {n k m : Nat} (x : FVec Ideal ⟨2, ![n, k]⟩ .f32) (w : FVec Ideal ⟨2, ![k, m]⟩ .f32) : FVec Ideal ⟨2, ![n, m]⟩ .f32 :=
  fun j => ∑ q : Fin k, x (ix2 (n0 := n) (n1 := k) (j 0) q) * w (ix2 (n0 := k) (n1 := m) q (j 1))

/-- A row vector b (held as a [1, m] array) added to every row of a, the sum clipped below at zero. -/
def biasRelu {n m : Nat} (a : FVec Ideal ⟨2, ![n, m]⟩ .f32) (b : FVec Ideal ⟨2, ![1, m]⟩ .f32) : FVec Ideal ⟨2, ![n, m]⟩ .f32 :=
  fun j => max (a j + b (ix2 (n0 := 1) (n1 := m) 0 (j 1))) 0

/-- The column sums of an [n, m] array, held as a [1, m] array. -/
def colSum {n m : Nat} (a : FVec Ideal ⟨2, ![n, m]⟩ .f32) : FVec Ideal ⟨2, ![1, m]⟩ .f32 :=
  fun j => ∑ r : Fin n, a (ix2 (n0 := n) (n1 := m) r (j 1))

end Cert.Spec

end
-- ==== Proof.Val.Reg0Val.lean ====
/-
  The value of the first kernel region (a [100000, 9] array times a [9, 64] array), entry by entry over the extended reals.
  The region walks the left operand and the result in ten row blocks of 10000 rows; the right operand is one block, the
  same at every grid point. At a point the body loads both blocks whole, multiplies them into a zero accumulator (the
  changes of float format are the identity on the extended reals) and stores the result block whole, so what the point
  writes back is a function of the two blocks alone. Each block is its array read at (block index × block rows + the row
  inside the block, the column), so the block written back is the block of one whole-array function, the product of the
  two arrays; and the ten blocks tile the rows: row r lies in the block of point r / 10000.
-/
import proofs.«155399_j9225589751902_1_alg».proof.Proof.KI.Reg0
import proofs.«155399_j9225589751902_1_alg».proof.Proof.Val.Spec
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- The zero offsets of a whole-buffer rectangle, as the constant function. -/
theorem zero_off0 : (![0, 0] : Fin 2 → Nat) = fun _ => 0 := funext fun a => by fin_cases a <;> rfl

/-! ## The block product at an entry -/

/-- The left operand's index at output index i and contraction index q: its row is the output's row, -/
theorem lhs0_0 (i : S10000x64.Idx) (q : dot_S10000x9_S9x64_S10000x64_1_0_0_1_n_n.contr.Idx) :
    (dot_S10000x9_S9x64_S10000x64_1_0_0_1_n_n.lhsIdx i q 0).val = (i 0).val := by
  unfold DotDims.lhsIdx
  rw [dif_neg (show ¬(0 : Fin S10000x9.rank) ∈ dot_S10000x9_S9x64_S10000x64_1_0_0_1_n_n.lhsBatch by decide), dif_pos (show (0 : Fin S10000x9.rank) ∈ dot_S10000x9_S9x64_S10000x64_1_0_0_1_n_n.lhsNonContracting by decide)]
  rfl
/-- its column the contracted coordinate. -/
theorem lhs0_1 (i : S10000x64.Idx) (q : dot_S10000x9_S9x64_S10000x64_1_0_0_1_n_n.contr.Idx) :
    (dot_S10000x9_S9x64_S10000x64_1_0_0_1_n_n.lhsIdx i q 1).val = (q ⟨0, by decide⟩).val :=
  dot_S10000x9_S9x64_S10000x64_1_0_0_1_n_n.lhsIdx_val_of_single rfl i q
/-- The right operand's: its row is the contracted coordinate, -/
theorem rhs0_0 (i : S10000x64.Idx) (q : dot_S10000x9_S9x64_S10000x64_1_0_0_1_n_n.contr.Idx) :
    (dot_S10000x9_S9x64_S10000x64_1_0_0_1_n_n.rhsIdx i q 0).val = (q ⟨0, by decide⟩).val :=
  dot_S10000x9_S9x64_S10000x64_1_0_0_1_n_n.rhsIdx_val_of_single rfl i q
/-- its column the output's column. -/
theorem rhs0_1 (i : S10000x64.Idx) (q : dot_S10000x9_S9x64_S10000x64_1_0_0_1_n_n.contr.Idx) :
    (dot_S10000x9_S9x64_S10000x64_1_0_0_1_n_n.rhsIdx i q 1).val = (i 1).val := by
  unfold DotDims.rhsIdx
  rw [dif_neg (show ¬(1 : Fin S9x64.rank) ∈ dot_S10000x9_S9x64_S10000x64_1_0_0_1_n_n.rhsBatch by decide), dif_pos (show (1 : Fin S9x64.rank) ∈ dot_S10000x9_S9x64_S10000x64_1_0_0_1_n_n.rhsNonContracting by decide)]
  rfl

/-- The body's arithmetic at row p, column q of a block: the format changes are the identity on the extended reals and
    the accumulator is zero, so the entry is the sum over the nine contracted coordinates of the products. -/
theorem pay0_apply (x0 : Vec Ideal S10000x9 .f32) (x1 : Vec Ideal S9x64 .f32) (p : Fin 10000) (q : Fin 64) :
    k0_pay1 x0 x1 (ix2 p q) = ∑ k : Fin 9, x0 (ix2 p k) * x1 (ix2 k q) := by
  unfold k0_pay1
  refine (Ideal.matmul_constant_zero_apply dot_S10000x9_S9x64_S10000x64_1_0_0_1_n_n none _ _ (ix2 p q)).trans ?_
  rw [← Equiv.sum_comp (contrEquiv1 dot_S10000x9_S9x64_S10000x64_1_0_0_1_n_n 9 rfl rfl).symm]
  refine Finset.sum_congr rfl fun k _ => ?_
  have hk := contrEquiv1_symm_val dot_S10000x9_S9x64_S10000x64_1_0_0_1_n_n 9 rfl rfl k
  have el : dot_S10000x9_S9x64_S10000x64_1_0_0_1_n_n.lhsIdx (ix2 p q) ((contrEquiv1 dot_S10000x9_S9x64_S10000x64_1_0_0_1_n_n 9 rfl rfl).symm k) = ix2 p k := funext fun a => Fin.ext (by
    match a with
    | ⟨0, _⟩ => exact lhs0_0 _ _
    | ⟨1, _⟩ => exact (lhs0_1 _ _).trans hk)
  have er : dot_S10000x9_S9x64_S10000x64_1_0_0_1_n_n.rhsIdx (ix2 p q) ((contrEquiv1 dot_S10000x9_S9x64_S10000x64_1_0_0_1_n_n 9 rfl rfl).symm k) = ix2 k q := funext fun a => Fin.ext (by
    match a with
    | ⟨0, _⟩ => exact (rhs0_0 _ _).trans hk
    | ⟨1, _⟩ => exact rhs0_1 _ _)
  rw [truncf_apply, truncf_apply, el, er]

/-- A block of the product. Let x0 be rows b·10000 … b·10000 + 9999 of A (its entry at y is A's at the same column and
    the row b·10000 + the row of y) and x1 be B. Then the body's result at index j of the block is the product's entry at
    row b·10000 + the row of j and the column of j. -/
theorem block0_apply (A : FVec Ideal S100000x9 .f32) (B : FVec Ideal S9x64 .f32)
    (x0 : Vec Ideal S10000x9 .f32) (x1 : Vec Ideal S9x64 .f32) (b : Nat)
    (j : S10000x64.Idx) (i : S100000x64.Idx)
    (hi0 : (i 0).val = b * 10000 + (j 0).val) (hi1 : (i 1).val = (j 1).val)
    (h0 : ∀ (y : S10000x9.Idx) (z : S100000x9.Idx), (z 0).val = b * 10000 + (y 0).val → (z 1).val = (y 1).val → x0 y = A z)
    (h1 : x1 = B) :
    k0_pay1 x0 x1 j = Cert.Spec.lin A B i := by
  obtain ⟨p, q, rfl⟩ : ∃ (p : Fin 10000) (q : Fin 64), j = ix2 p q := ⟨j 0, j 1, eq_ix2 j⟩
  obtain ⟨r, s, rfl⟩ : ∃ (r : Fin 100000) (s : Fin 64), i = ix2 r s := ⟨i 0, i 1, eq_ix2 i⟩
  obtain rfl : s = q := Fin.ext hi1
  subst h1
  rw [pay0_apply]
  show _ = ∑ k : Fin 9, A (ix2 r k) * x1 (ix2 k s)
  exact Finset.sum_congr rfl fun k _ => by rw [h0 (ix2 p k) (ix2 r k) hi0 rfl]

/-! ## From the blocks to the array -/

/-- The index maps, decided once over the ten grid points: the left operand's and the result's row-block index is the
    point's number, every column-block index is 0, and the right operand's block is always block (0, 0). -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

section
variable (V : (c : Dev nD) → (b : Ref sig .tc) → Buf (Elt Ideal) ((c : Thread nD τ).loc b))

/-- What grid point t writes back is block t of the product of the two operand arrays as the region finds them. -/
theorem flushed0_eq (c : Dev nD) (t : Fin cfg0.N) :
    (dat0 (F := Ideal) V c).flushed 2 t = ((cfg0.win 2).blk t).view.read (Elt Ideal) (Cert.Spec.lin (V c main_arg0) (V c main_arg2)) := by
  show (cfg0.win 2).cut (grid0.coords t) ((dat0 V c).after 2 t) = _
  rw [after0_2]
  unfold out0_2
  rw [View.canon_unit_zero zero_off0]
  simp only [View.ld_unit_zero (S := S10000x9) zero_off0, View.ld_unit_zero (S := S9x64) zero_off0]
  obtain ⟨e0, e1, e2, e3, e4, e5⟩ := idx_facts0 t
  funext j
  rw [View.read_apply]
  show k0_pay1 (iblk0 V c 0 t) (iblk0 V c 1 t) j = _
  refine block0_apply (V c main_arg0) (V c main_arg2) (iblk0 V c 0 t) (iblk0 V c 1 t) t.val j (((cfg0.win 2).blk t).view.emb j) ?_ ?_ ?_ ?_
  · show win0_2.index t (0 : Fin 2) * 10000 + 1 * (j 0).val = _
    omega
  · show win0_2.index t (1 : Fin 2) * 64 + 1 * (j 1).val = _
    omega
  · intro y z hz0 hz1
    show V c main_arg0 (((cfg0.win 0).blk t).view.emb y) = V c main_arg0 z
    refine congrArg _ (funext fun a => Fin.ext ?_)
    match a with
    | ⟨0, _⟩ => show win0_0.index t (0 : Fin 2) * 10000 + 1 * (y 0).val = (z 0).val; omega
    | ⟨1, _⟩ => show win0_0.index t (1 : Fin 2) * 9 + 1 * (y 1).val = (z 1).val; omega
  · funext y
    show V c main_arg2 (((cfg0.win 1).blk t).view.emb y) = V c main_arg2 y
    refine congrArg _ (funext fun a => Fin.ext ?_)
    match a with
    | ⟨0, _⟩ => show win0_1.index t (0 : Fin 2) * 9 + 1 * (y 0).val = (y 0).val; omega
    | ⟨1, _⟩ => show win0_1.index t (1 : Fin 2) * 64 + 1 * (y 1).val = (y 1).val; omega

/-- An index of the result array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten row blocks tile the result: row r lies in the block of point r / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the region: the product of the two operand arrays as the region finds them. -/
theorem final0 (c : Dev nD) : (dat0 (F := Ideal) V c).arrAt 2 cfg0.N = Cert.Spec.lin (V c main_arg0) (V c main_arg2) :=
  (dat0 (F := Ideal) V c).arrAt_eq_of_cover 2 (Cert.Spec.lin (V c main_arg0) (V c main_arg2)) (fun t _ => flushed0_eq V c t) (cover0)

end

end Cert.KernelIdeal.HandVal

end
-- ==== Proof.Val.Reg1Val.lean ====
/-
  The value of the second kernel region (a row vector added to every row of a [100000, 64] array, the sum clipped below at
  zero), entry by entry over the extended reals. The region walks the array and the result in ten row blocks of 10000
  rows; the [1, 64] row vector is one block, the same at every grid point. At a point the body loads both blocks whole
  and stores the result block whole, so what the point writes back is a function of the two blocks alone. Each block is
  its array read at (block index × block rows + the row inside the block, the column), so the block written back is the
  block of one whole-array function; and the ten blocks tile the rows: row r lies in the block of point r / 10000.
-/
import proofs.«155399_j9225589751902_1_alg».proof.Proof.KI.Reg1
import proofs.«155399_j9225589751902_1_alg».proof.Proof.Val.Spec
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- The zero offsets of a whole-buffer rectangle, as the constant function. -/
theorem zero_off1 : (![0, 0] : Fin 2 → Nat) = fun _ => 0 := funext fun a => by fin_cases a <;> rfl

/-! ## The body's arithmetic at an entry -/

/-- At row p, column q of a block: the block's entry plus the row vector's entry of that column, clipped below at
    zero (the casts to the same shape are the identity, the broadcast reads the one row, the zero word is 0). -/
theorem pay1_apply (x0 : Vec Ideal S10000x64 .f32) (x1 : Vec Ideal S1x64 .f32) (p : Fin 10000) (q : Fin 64) :
    k1_pay1 x0 x1 (ix2 p q) = max (x0 (ix2 p q) + x1 (ix2 (0 : Fin 1) q)) 0 := by
  unfold k1_pay1
  simp only [shapeCast_self]
  rw [maximumf_apply, addf_apply, broadcast_apply, broadcastTo_1b_ab_apply]
  exact congrArg (max _) Ideal.ofBits_zero_f32

/-- A block of the result. Let x0 be rows b·10000 … b·10000 + 9999 of A and x1 be B. Then the body's result at index j
    of the block is the whole-array function's entry at row b·10000 + the row of j and the column of j. -/
theorem block1_apply (A : FVec Ideal S100000x64 .f32) (B : FVec Ideal S1x64 .f32)
    (x0 : Vec Ideal S10000x64 .f32) (x1 : Vec Ideal S1x64 .f32)
    (j : S10000x64.Idx) (i : S100000x64.Idx)
    (hi1 : (i 1).val = (j 1).val)
    (h0 : x0 j = A i)
    (h1 : x1 = B) :
    k1_pay1 x0 x1 j = Cert.Spec.biasRelu A B i := by
  obtain ⟨p, q, rfl⟩ : ∃ (p : Fin 10000) (q : Fin 64), j = ix2 p q := ⟨j 0, j 1, eq_ix2 j⟩
  obtain ⟨r, s, rfl⟩ : ∃ (r : Fin 100000) (s : Fin 64), i = ix2 r s := ⟨i 0, i 1, eq_ix2 i⟩
  obtain rfl : s = q := Fin.ext hi1
  subst h1
  rw [pay1_apply, h0]
  rfl

/-! ## From the blocks to the array -/

/-- The index maps, decided once over the ten grid points: the array's and the result's row-block index is the point's
    number, every column-block index is 0, and the row vector's block is always block (0, 0). -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

section
variable (V : (c : Dev nD) → (b : Ref sig .tc) → Buf (Elt Ideal) ((c : Thread nD τ).loc b))

/-- What grid point t writes back is block t of the whole-array function of the two operand arrays as the region finds
    them. -/
theorem flushed1_eq (c : Dev nD) (t : Fin cfg1.N) :
    (dat1 (F := Ideal) V c).flushed 2 t = ((cfg1.win 2).blk t).view.read (Elt Ideal) (Cert.Spec.biasRelu (V c main_v43) (V c main_v44)) := by
  show (cfg1.win 2).cut (grid1.coords t) ((dat1 V c).after 2 t) = _
  rw [after1_2]
  unfold out1_2
  rw [View.canon_unit_zero zero_off1]
  simp only [View.ld_unit_zero (S := S10000x64) zero_off1, View.ld_unit_zero (S := S1x64) zero_off1]
  obtain ⟨e0, e1, e2, e3, e4, e5⟩ := idx_facts1 t
  funext j
  rw [View.read_apply]
  show k1_pay1 (iblk1 V c 0 t) (iblk1 V c 1 t) j = _
  refine block1_apply (V c main_v43) (V c main_v44) (iblk1 V c 0 t) (iblk1 V c 1 t) j (((cfg1.win 2).blk t).view.emb j) ?_ ?_ ?_
  · show win1_2.index t (1 : Fin 2) * 64 + 1 * (j 1).val = _
    omega
  · show V c main_v43 (((cfg1.win 0).blk t).view.emb j) = V c main_v43 (((cfg1.win 2).blk t).view.emb j)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · funext y
    show V c main_v44 (((cfg1.win 1).blk t).view.emb y) = V c main_v44 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 64 + 1 * (y 1).val = (y 1).val; omega

/-- An index of the result array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- The ten row blocks tile the result: row r lies in the block of point r / 10000. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the region: the row vector added to every row of the array, clipped below at zero, of the two
    operand arrays as the region finds them. -/
theorem final1 (c : Dev nD) : (dat1 (F := Ideal) V c).arrAt 2 cfg1.N = Cert.Spec.biasRelu (V c main_v43) (V c main_v44) :=
  (dat1 (F := Ideal) V c).arrAt_eq_of_cover 2 (Cert.Spec.biasRelu (V c main_v43) (V c main_v44)) (fun t _ => flushed1_eq V c t) (cover1)

end

end Cert.KernelIdeal.HandVal

end
-- ==== Proof.Val.Reg2Val.lean ====
/-
  The value of the third kernel region (a [100000, 64] array times a [64, 32] array), entry by entry over the extended
  reals. The region walks the left operand and the result in ten row blocks of 10000 rows; the right operand is one block,
  the same at every grid point. At a point the body loads both blocks whole, multiplies them into a zero accumulator (the
  cast to the same shape and the changes of float format are the identity on the extended reals) and stores the result
  block whole, so what the point writes back is a function of the two blocks alone. Each block is its array read at
  (block index × block rows + the row inside the block, the column), so the block written back is the block of one
  whole-array function, the product of the two arrays; and the ten blocks tile the rows: row r lies in the block of
  point r / 10000.
-/
import proofs.«155399_j9225589751902_1_alg».proof.Proof.KI.Reg2
import proofs.«155399_j9225589751902_1_alg».proof.Proof.Val.Spec
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- The zero offsets of a whole-buffer rectangle, as the constant function. -/
theorem zero_off2 : (![0, 0] : Fin 2 → Nat) = fun _ => 0 := funext fun a => by fin_cases a <;> rfl

/-! ## The block product at an entry -/

/-- The left operand's index at output index i and contraction index q: its row is the output's row, -/
theorem lhs2_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
/-- its column the contracted coordinate. -/
theorem lhs2_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
/-- The right operand's: its row is the contracted coordinate, -/
theorem rhs2_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
/-- its column the output's column. -/
theorem rhs2_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The body's arithmetic at row p, column q of a block: the cast to the same shape and the format changes are the
    identity on the extended reals and the accumulator is zero, so the entry is the sum over the sixty-four contracted
    coordinates of the products. -/
theorem pay2_apply (x0 : Vec Ideal S10000x64 .f32) (x1 : Vec Ideal S64x32 .f32) (p : Fin 10000) (q : Fin 32) :
    k2_pay1 x0 x1 (ix2 p q) = ∑ k : Fin 64, x0 (ix2 p k) * x1 (ix2 k q) := by
  unfold k2_pay1
  simp only [shapeCast_self]
  refine (Ideal.matmul_constant_zero_apply dot_S10000x64_S64x32_S10000x32_1_0_0_1_n_n none _ _ (ix2 p q)).trans ?_
  rw [← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p q) ((contrEquiv1 dot_S10000x64_S64x32_S10000x32_1_0_0_1_n_n 64 rfl rfl).symm k) = ix2 p k := funext fun a => Fin.ext (by
    match a with
    | ⟨0, _⟩ => exact lhs2_0 _ _
    | ⟨1, _⟩ => exact (lhs2_1 _ _).trans hk)
  have er : dot_S10000x64_S64x32_S10000x32_1_0_0_1_n_n.rhsIdx (ix2 p q) ((contrEquiv1 dot_S10000x64_S64x32_S10000x32_1_0_0_1_n_n 64 rfl rfl).symm k) = ix2 k q := funext fun a => Fin.ext (by
    match a with
    | ⟨0, _⟩ => exact (rhs2_0 _ _).trans hk
    | ⟨1, _⟩ => exact rhs2_1 _ _)
  rw [truncf_apply, truncf_apply, el, er]

/-- A block of the product. Let x0 be rows b·10000 … b·10000 + 9999 of A (its entry at y is A's at the same column and
    the row b·10000 + the row of y) and x1 be B. Then the body's result at index j of the block is the product's entry at
    row b·10000 + the row of j and the column of j. -/
theorem block2_apply (A : FVec Ideal S100000x64 .f32) (B : FVec Ideal S64x32 .f32)
    (x0 : Vec Ideal S10000x64 .f32) (x1 : Vec Ideal S64x32 .f32) (b : Nat)
    (j : S10000x32.Idx) (i : S100000x32.Idx)
    (hi0 : (i 0).val = b * 10000 + (j 0).val) (hi1 : (i 1).val = (j 1).val)
    (h0 : ∀ (y : S10000x64.Idx) (z : S100000x64.Idx), (z 0).val = b * 10000 + (y 0).val → (z 1).val = (y 1).val → x0 y = A z)
    (h1 : x1 = B) :
    k2_pay1 x0 x1 j = Cert.Spec.lin A B i := by
  obtain ⟨p, q, rfl⟩ : ∃ (p : Fin 10000) (q : Fin 32), j = ix2 p q := ⟨j 0, j 1, eq_ix2 j⟩
  obtain ⟨r, s, rfl⟩ : ∃ (r : Fin 100000) (s : Fin 32), i = ix2 r s := ⟨i 0, i 1, eq_ix2 i⟩
  obtain rfl : s = q := Fin.ext hi1
  subst h1
  rw [pay2_apply]
  show _ = ∑ k : Fin 64, A (ix2 r k) * x1 (ix2 k s)
  exact Finset.sum_congr rfl fun k _ => by rw [h0 (ix2 p k) (ix2 r k) hi0 rfl]

/-! ## From the blocks to the array -/

/-- The index maps, decided once over the ten grid points: the left operand's and the result's row-block index is the
    point's number, every column-block index is 0, and the right operand's block is always block (0, 0). -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

section
variable (V : (c : Dev nD) → (b : Ref sig .tc) → Buf (Elt Ideal) ((c : Thread nD τ).loc b))

/-- What grid point t writes back is block t of the product of the two operand arrays as the region finds them. -/
theorem flushed2_eq (c : Dev nD) (t : Fin cfg2.N) :
    (dat2 (F := Ideal) V c).flushed 2 t = ((cfg2.win 2).blk t).view.read (Elt Ideal) (Cert.Spec.lin (V c main_v45) (V c main_arg4)) := by
  show (cfg2.win 2).cut (grid2.coords t) ((dat2 V c).after 2 t) = _
  rw [after2_2]
  unfold out2_2
  rw [View.canon_unit_zero zero_off2]
  simp only [View.ld_unit_zero (S := S10000x64) zero_off2, View.ld_unit_zero (S := S64x32) zero_off2]
  obtain ⟨e0, e1, e2, e3, e4, e5⟩ := idx_facts2 t
  funext j
  rw [View.read_apply]
  show k2_pay1 (iblk2 V c 0 t) (iblk2 V c 1 t) j = _
  refine block2_apply (V c main_v45) (V c main_arg4) (iblk2 V c 0 t) (iblk2 V c 1 t) t.val j (((cfg2.win 2).blk t).view.emb j) ?_ ?_ ?_ ?_
  · show win2_2.index t (0 : Fin 2) * 10000 + 1 * (j 0).val = _
    omega
  · show win2_2.index t (1 : Fin 2) * 32 + 1 * (j 1).val = _
    omega
  · intro y z hz0 hz1
    show V c main_v45 (((cfg2.win 0).blk t).view.emb y) = V c main_v45 z
    refine congrArg _ (funext fun a => Fin.ext ?_)
    match a with
    | ⟨0, _⟩ => show win2_0.index t (0 : Fin 2) * 10000 + 1 * (y 0).val = (z 0).val; omega
    | ⟨1, _⟩ => show win2_0.index t (1 : Fin 2) * 64 + 1 * (y 1).val = (z 1).val; omega
  · funext y
    show V c main_arg4 (((cfg2.win 1).blk t).view.emb y) = V c main_arg4 y
    refine congrArg _ (funext fun a => Fin.ext ?_)
    match a with
    | ⟨0, _⟩ => show win2_1.index t (0 : Fin 2) * 64 + 1 * (y 0).val = (y 0).val; omega
    | ⟨1, _⟩ => show win2_1.index t (1 : Fin 2) * 32 + 1 * (y 1).val = (y 1).val; omega

/-- An index of the result array is in point t's block iff each coordinate is in the block's range on its axis. -/
theorem mem_blk2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v46).slice (win2_2.rect t)).set ↔ _
  rw [View.set_slice_whole, Rect.mem_set_unit]
  exact Iff.rfl

/-- The ten row blocks tile the result: row r lies in the block of point r / 10000. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-- The result array after the region: the product of the two operand arrays as the region finds them. -/
theorem final2 (c : Dev nD) : (dat2 (F := Ideal) V c).arrAt 2 cfg2.N = Cert.Spec.lin (V c main_v45) (V c main_arg4) :=
  (dat2 (F := Ideal) V c).arrAt_eq_of_cover 2 (Cert.Spec.lin (V c main_v45) (V c main_arg4)) (fun t _ => flushed2_eq V c t) (cover2)

end

end Cert.KernelIdeal.HandVal

end
-- ==== Proof.Val.Reg3Val.lean ====
/-
  What region 3 leaves in its result array, over the extended reals: the column sums of max(a + b, 0), where a is the
  [100000, 32] left operand and b the one row of the right operand as the region finds them. The body's arithmetic at one
  grid point adds to the carried row, column by column, the sum over the point's 10000 rows of max(a + b, 0); the ten
  points take the ten row blocks in order, row 10000·t + r of the array being row r of block t, so after the last point
  the carried row is the sum over all 100000 rows (a sum over a range splits at multiples of 10000). The one write-back,
  after the last point, puts that row into the result array, which it covers.
-/
import proofs.«155399_j9225589751902_1_alg».proof.Proof.KI.Reg3
import proofs.«155399_j9225589751902_1_alg».proof.Proof.Val.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The body's arithmetic at an entry -/

/-- The row the first point stores into the scratch is zero. -/
theorem pay3_1_apply (j : S1x32.Idx) : (k3_pay1 (F := Ideal) : S1x32.Idx → EReal) j = 0 := by
  unfold k3_pay1
  simp only [shapeCast_self]
  show Ideal.ofBits .f32 0x00000000#32 = 0
  exact Ideal.ofBits_zero_f32

/-- The index the column reduction reads for row `r` of column `j`: entry (r, j). -/
theorem lift3_eq (j : S32.Idx) (r : Fin 10000) : reduces_S10000x32_S32.lift j r = ix2 (n0 := 10000) (n1 := 32) r (j 0) := by
  funext a
  match a with
  | ⟨0, _⟩ => rfl
  | ⟨1, _⟩ => rfl

/-- One point's update of the carried row, at column `q`: the row's entry plus the sum over the block's rows of
    max(a + b, 0) in that column. -/
theorem pay3_2_apply (x0 : Vec Ideal S10000x32 .f32) (x1 : Vec Ideal S1x32 .f32) (s : Vec Ideal S1x32 .f32) (q : Fin 32) :
    (k3_pay2 (F := Ideal) x0 x1 s : S1x32.Idx → EReal) (ix2 0 q)
      = (s (ix2 0 q) : EReal) + ∑ r : Fin 10000, max ((x0 (ix2 r q) : EReal) + (x1 (ix2 0 q) : EReal)) 0 := by
  unfold k3_pay2
  simp only [shapeCast_self]
  refine (addf_apply _ _ _).trans ?_
  refine congrArg (fun z : EReal => (s (ix2 0 q) : EReal) + z) ?_
  refine (shapeCast_addUnit_apply ![32] _ shapeCasts_S32_S1x32 (ix2 0 q)).trans ?_
  refine (Ideal.multiReduction_add_single _ _ reduces_S10000x32_S32 _ _ _).trans ?_
  show ∑ r : Fin 10000, _ = _
  refine Finset.sum_congr rfl fun r _ => ?_
  refine (maximumf_apply _ _ _).trans ?_
  refine congrArg₂ max ?_ ?_
  · refine (addf_apply _ _ _).trans ?_
    refine congrArg₂ (fun y z : EReal => y + z) (congrArg x0 (lift3_eq _ r)) ?_
    refine broadcastTo_apply x1 broadcasts_S1x32_S10000x32 _ (ix2 0 q) ?_
    intro a
    match a with
    | ⟨0, _⟩ => rfl
    | ⟨1, _⟩ => rfl
  · exact Ideal.ofBits_zero_f32

/-! ## The blocks, read off the arrays -/

section
variable (V : (c : Dev nD) → (b : Ref sig .tc) → Buf (Elt Ideal) ((c : Thread nD τ).loc b))

/-- The two operand arrays as the region finds them, and their blocks at a point, at their literal types. -/
abbrev arr3_a (c : Dev nD) : FVec Ideal S100000x32 .f32 := V c main_v59
abbrev arr3_b (c : Dev nD) : FVec Ideal S1x32 .f32 := V c main_v60
abbrev blk3_a (c : Dev nD) (t : Fin cfg3.N) : Vec Ideal S10000x32 .f32 := iblk3 V c 0 t
abbrev blk3_b (c : Dev nD) (t : Fin cfg3.N) : Vec Ideal S1x32 .f32 := iblk3 V c 1 t

/-- Where the windows' blocks sit: the left operand's block at point `t` starts at row block `t`; the right operand's
    block is always the whole row. Decided over the ten points. -/
theorem idx3_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem idx3_1 : ∀ t : Fin cfg3.N, win3_1.index t (0 : Fin 2) = 0 ∧ win3_1.index t (1 : Fin 2) = 0 :=
  (by decide +kernel : ∀ t : Fin grid3.N, win3_1.index t (0 : Fin 2) = 0 ∧ win3_1.index t (1 : Fin 2) = 0)

/-- Row `r` of the left operand's block at point `t` is row 10000·t + r of the array. -/
theorem blk3_a_apply (c : Dev nD) (t : Fin cfg3.N) (r : Fin 10000) (q : Fin 32) (h : 10000 * t.val + r.val < 100000) :
    blk3_a V c t (ix2 r q) = arr3_a V c (ix2 ⟨10000 * t.val + r.val, h⟩ q) := by
  unfold blk3_a arr3_a iblk3
  rw [View.read_apply]
  show V c main_v59 _ = V c main_v59 _
  congr 1
  funext a
  apply Fin.ext
  match a with
  | ⟨0, _⟩ => show win3_0.index t 0 * 10000 + 1 * r.val = 10000 * t.val + r.val; rw [(idx3_0 t).1]; omega
  | ⟨1, _⟩ => show win3_0.index t 1 * 32 + 1 * q.val = q.val; rw [(idx3_0 t).2]; omega

/-- The right operand's block is the array's one row. -/
theorem blk3_b_apply (c : Dev nD) (t : Fin cfg3.N) (q : Fin 32) :
    blk3_b V c t (ix2 0 q) = arr3_b V c (ix2 0 q) := by
  unfold blk3_b arr3_b iblk3
  rw [View.read_apply]
  show V c main_v60 _ = V c main_v60 _
  congr 1
  funext a
  apply Fin.ext
  match a with
  | ⟨0, _⟩ => show win3_1.index t 0 * 1 + 1 * 0 = 0; rw [(idx3_1 t).1]
  | ⟨1, _⟩ => show win3_1.index t 1 * 32 + 1 * q.val = q.val; rw [(idx3_1 t).2]; omega

/-! ## The carried row is a running sum over the rows -/

/-- Row `ρ`'s term in column `q`: max(a(ρ, q) + b(q), 0); zero past the array's last row. -/
def term3 (c : Dev nD) (q : Fin 32) (ρ : ℕ) : EReal :=
  if h : ρ < 100000 then max (arr3_a V c (ix2 ⟨ρ, h⟩ q) + arr3_b V c (ix2 0 q)) 0 else 0

/-- One point's update adds the terms of the point's 10000 rows. -/
theorem step3 (c : Dev nD) (t : Fin cfg3.N) (s : Vec Ideal S1x32 .f32) (q : Fin 32) :
    (k3_pay2 (F := Ideal) (blk3_a V c t) (blk3_b V c t) s : S1x32.Idx → EReal) (ix2 0 q)
      = (s (ix2 0 q) : EReal) + ∑ i ∈ Finset.range 10000, term3 V c q (10000 * t.val + i) := by
  refine (pay3_2_apply (blk3_a V c t) (blk3_b V c t) s q).trans ?_
  refine congrArg (fun z : EReal => (s (ix2 0 q) : EReal) + z) ?_
  rw [Finset.sum_range]
  refine Finset.sum_congr rfl fun r _ => ?_
  have hN : cfg3.N = 10 := N_3
  have ht := t.isLt
  have h : 10000 * t.val + r.val < 100000 := by omega
  unfold term3
  rw [dif_pos h, blk3_a_apply V c t r q h, blk3_b_apply V c t q]

/-- After the body at position `n` the carried row holds, in column `q`, the terms of rows 0 … 10000·(n + 1) − 1. -/
theorem acc3_eq (c : Dev nD) (q : Fin 32) : ∀ (n : ℕ) (hn : n < cfg3.N),
    (acc3 V c n hn : S1x32.Idx → EReal) (ix2 0 q) = ∑ i ∈ Finset.range (10000 * (n + 1)), term3 V c q i
  | 0, hn => by
    refine (step3 V c ⟨0, hn⟩ (k3_pay1 (F := Ideal)) q).trans ?_
    rw [pay3_1_apply, zero_add]
    refine Finset.sum_congr rfl fun i _ => ?_
    show term3 V c q (10000 * 0 + i) = term3 V c q i
    rw [Nat.mul_zero, Nat.zero_add]
  | n + 1, hn => by
    refine (step3 V c ⟨n + 1, hn⟩ (acc3 V c n (Nat.lt_of_succ_lt hn)) q).trans ?_
    rw [acc3_eq c q n (Nat.lt_of_succ_lt hn)]
    show _ + ∑ i ∈ Finset.range 10000, term3 V c q (10000 * (n + 1) + i) = _
    rw [show 10000 * (n + 1 + 1) = 10000 * (n + 1) + 10000 by ring, Finset.sum_range_add]

/-- The region's result as one function of its operands: the column sums of max(a + b, 0). -/
abbrev res3 (c : Dev nD) : Buf (Elt Ideal) ((c : Thread nD τ).loc main_v61) :=
  Cert.Spec.colSum (Cert.Spec.biasRelu (arr3_a V c) (arr3_b V c))

/-- After the last point the carried row is that. -/
theorem res3_eq (c : Dev nD) (n : ℕ) (hn : n < cfg3.N) (h9 : n = 9) : acc3 V c n hn = res3 V c := by
  subst h9
  funext j
  obtain ⟨p, q, rfl⟩ : ∃ (p : Fin 1) (q : Fin 32), j = ix2 p q := ⟨j 0, j 1, eq_ix2 j⟩
  obtain rfl : p = 0 := Subsingleton.elim _ _
  refine (acc3_eq V c q 9 hn).trans ?_
  show ∑ i ∈ Finset.range 100000, term3 V c q i
    = ∑ r : Fin 100000, max (arr3_a V c (ix2 r q) + arr3_b V c (ix2 0 q)) 0
  rw [Finset.sum_range]
  refine Finset.sum_congr rfl fun r _ => ?_
  unfold term3
  rw [dif_pos r.isLt]

/-! ## The result array -/

/-- The one write-back, after the last point, writes that row: the block at zero offsets of a [1, 32] array is the array. -/
theorem flushed3_eq (c : Dev nD) (t : Fin cfg3.N) (hf : (cfg3.win 2).flush t = true) :
    (dat3 V c).flushed 2 t = ((cfg3.win 2).blk t).view.read (Elt Ideal) (res3 V c) := by
  have hN : cfg3.N = 10 := N_3
  have h9 : t.val = 9 := by have := (flush3_2 t).mp hf; have := t.isLt; omega
  obtain rfl : t = t3_9 := Fin.ext h9
  show (cfg3.win 2).cut (grid3.coords t3_9) ((dat3 V c).after 2 t3_9) = _
  rw [after3_2, res3_eq V c t3_9.val t3_9.isLt rfl]
  have hz' : (fun a => win3_2.index t3_9 a * main_v61.ty.shape.size a) = fun _ => 0 := funext fun a => by fin_cases a <;> decide +kernel
  exact (Memref.read_access_unit_zero (Elt Ideal) main_v61 hz' (fun a => by rw [congrFun hz' a]; simp) (res3 V c)).symm

/-- So the result array ends holding the column sums of max(a + b, 0) of the two operand arrays. -/
theorem final3 (c : Dev nD) :
    (dat3 (F := Ideal) V c).arrAt 2 cfg3.N = Cert.Spec.colSum (Cert.Spec.biasRelu (V c main_v59) (V c main_v60)) :=
  (dat3 V c).arrAt_eq_of_cover 2 (res3 V c) (flushed3_eq V c) fun i =>
    ⟨t3_9, (flush3_2 t3_9).mpr rfl, by
      show i ∈ ((View.whole main_v61).slice (win3_2.rect t3_9)).set
      rw [View.set_slice_whole, Rect.mem_set_unit]
      intro a
      have h0 : (i 0 : Nat) < 1 := (i 0).isLt
      have h1 : (i 1 : Nat) < 32 := (i 1).isLt
      match a with
      | ⟨0, _⟩ => show win3_2.index t3_9 0 * win3_2.size 0 ≤ (i 0 : Nat) ∧ (i 0 : Nat) < win3_2.index t3_9 0 * win3_2.size 0 + win3_2.xsize (grid3.coords t3_9) 0
                  rw [show win3_2.index t3_9 0 * win3_2.size 0 = 0 from by decide +kernel, show win3_2.xsize (grid3.coords t3_9) 0 = 1 from by decide +kernel]; omega
      | ⟨1, _⟩ => show win3_2.index t3_9 1 * win3_2.size 1 ≤ (i 1 : Nat) ∧ (i 1 : Nat) < win3_2.index t3_9 1 * win3_2.size 1 + win3_2.xsize (grid3.coords t3_9) 1
                  rw [show win3_2.index t3_9 1 * win3_2.size 1 = 0 from by decide +kernel, show win3_2.xsize (grid3.coords t3_9) 1 = 32 from by decide +kernel]; omega⟩

end

end Cert.KernelIdeal.HandVal

end
-- ==== Proof.Val.KerValue.lean ====
/-
  The value of the program's result, from the launch memory: the four regions' results composed with the host
  functions between them. The first region leaves the product of the node features with the first weights; the
  normalised neighbourhood sum of it, with the first bias added and clipped below at zero, is what the second region
  leaves; the third leaves its product with the second weights; the fourth leaves the column sums of the neighbourhood
  sum of that with the second bias added and clipped; the read-out is applied to those column sums.
-/
import proofs.«155399_j9225589751902_1_alg».proof.Proof.Val.Stages
import proofs.«155399_j9225589751902_1_alg».proof.Proof.Val.Spec
import proofs.«155399_j9225589751902_1_alg».proof.Proof.Val.Reg0Val
import proofs.«155399_j9225589751902_1_alg».proof.Proof.Val.Reg1Val
import proofs.«155399_j9225589751902_1_alg».proof.Proof.Val.Reg2Val
import proofs.«155399_j9225589751902_1_alg».proof.Proof.Val.Reg3Val

set_option maxRecDepth 16384

noncomputable section

namespace Cert.KernelIdeal.HandVal

open Cert.KernelIdeal Cert.KernelIdeal.Gen Cert.KernelIdeal.Hand
open Idealize.ShloMosaic Idealize.ShloMosaic.TcCoe

variable (m : (ℓ : Loc nD τ sig) → Buf (Elt Ideal) ℓ)

/-- The first region's result: the node features times the first weights. -/
theorem W4_v30 (c : Dev nD) :
    W4 (F := Ideal) m c (Proc.devRef .tc main_v30)
      = Cert.Spec.lin (m ((c : Thread nD τ).loc main_arg0)) (m ((c : Thread nD τ).loc main_arg2)) := by
  refine (W4_arr m c 2).trans ((final0 (E3 m) c).trans ?_)
  rw [show E3 m c main_arg0 = m ((c : Thread nD τ).loc main_arg0) from W3_arg0 m c,
    show E3 m c main_arg2 = m ((c : Thread nD τ).loc main_arg2) from W3_arg2 m c]

/-- The second region's result: the neighbourhood sum of the first, the first bias added, clipped below at zero. -/
theorem W6_v45 (c : Dev nD) :
    W6 (F := Ideal) m c (Proc.devRef .tc main_v45)
      = Cert.Spec.biasRelu
          (Cert.HostFn.agg64 (m ((c : Thread nD τ).loc main_arg1))
            (Cert.Spec.lin (m ((c : Thread nD τ).loc main_arg0)) (m ((c : Thread nD τ).loc main_arg2))))
          (Cert.HostFn.row64 (m ((c : Thread nD τ).loc main_arg3))) := by
  refine (W6_arr m c 2).trans ((final1 (E5 m) c).trans ?_)
  rw [show E5 m c main_v43 = _ from W5_v43 m c, show E5 m c main_v44 = _ from W5_v44 m c, W4_v30 m c]

/-- The third region's result: the second times the second weights. -/
theorem W7_v46 (c : Dev nD) :
    W7 (F := Ideal) m c (Proc.devRef .tc main_v46)
      = Cert.Spec.lin
        (Cert.Spec.biasRelu
          (Cert.HostFn.agg64 (m ((c : Thread nD τ).loc main_arg1))
            (Cert.Spec.lin (m ((c : Thread nD τ).loc main_arg0)) (m ((c : Thread nD τ).loc main_arg2))))
          (Cert.HostFn.row64 (m ((c : Thread nD τ).loc main_arg3))))
        (m ((c : Thread nD τ).loc main_arg4)) := by
  refine (W7_arr m c 2).trans ((final2 (E6 m) c).trans ?_)
  rw [show E6 m c main_v45 = _ from W6_v45 m c, show E6 m c main_arg4 = _ from W6_arg4 m c]

/-- The fourth region's result: the column sums of the neighbourhood sum of the third, the second bias added,
    clipped below at zero. -/
theorem W9_v61 (c : Dev nD) :
    W9 (F := Ideal) m c (Proc.devRef .tc main_v61)
      = Cert.Spec.colSum
        (Cert.Spec.biasRelu
          (Cert.HostFn.agg32 (m ((c : Thread nD τ).loc main_arg1))
            (Cert.Spec.lin
        (Cert.Spec.biasRelu
          (Cert.HostFn.agg64 (m ((c : Thread nD τ).loc main_arg1))
            (Cert.Spec.lin (m ((c : Thread nD τ).loc main_arg0)) (m ((c : Thread nD τ).loc main_arg2))))
          (Cert.HostFn.row64 (m ((c : Thread nD τ).loc main_arg3))))
        (m ((c : Thread nD τ).loc main_arg4))))
          (Cert.HostFn.row32 (m ((c : Thread nD τ).loc main_arg5)))) := by
  refine (W9_arr m c 2).trans ((final3 (E8 m) c).trans ?_)
  rw [show E8 m c main_v59 = _ from W8_v59 m c, show E8 m c main_v60 = _ from W8_v60 m c, W7_v46 m c]

/-- The program's result from the launch memory. -/
theorem ker_value (c : Dev nD) :
    W10 (F := Ideal) m c (Proc.devRef .tc main_v67)
      = Cert.HostFn.tailFn
          (Cert.Spec.colSum
        (Cert.Spec.biasRelu
          (Cert.HostFn.agg32 (m ((c : Thread nD τ).loc main_arg1))
            (Cert.Spec.lin
        (Cert.Spec.biasRelu
          (Cert.HostFn.agg64 (m ((c : Thread nD τ).loc main_arg1))
            (Cert.Spec.lin (m ((c : Thread nD τ).loc main_arg0)) (m ((c : Thread nD τ).loc main_arg2))))
          (Cert.HostFn.row64 (m ((c : Thread nD τ).loc main_arg3))))
        (m ((c : Thread nD τ).loc main_arg4))))
          (Cert.HostFn.row32 (m ((c : Thread nD τ).loc main_arg5)))))
          (m ((c : Thread nD τ).loc main_arg6)) (m ((c : Thread nD τ).loc main_arg7)) := by
  rw [W10_v67 m c, W9_v61 m c]

end Cert.KernelIdeal.HandVal

end
-- ==== Proof.Val.RefLemmas.lean ====
/-
  The reference's operations, each read entry by entry over the extended reals, are the specification's functions: its two
  matrix products are `lin`; its bias (a vector placed as a row, the row repeated down the array), added and clipped below
  at a repeated zero, is `biasRelu` at any row array with the bias's entries; its sum over the rows from the initial value
  zero, placed as a row, is `colSum`.
-/
import proofs.«155399_j9225589751902_1_alg».proof.Proof.RefReadP
import proofs.«155399_j9225589751902_1_alg».proof.Proof.Val.Spec

noncomputable section

namespace Cert.ReferenceIdeal.HandVal

open Cert.ReferenceIdeal Cert.ReferenceIdeal.Gen Idealize.ShloMosaic Idealize.ShloMosaic.ValueIdx

/-- The first layer's product of the [100000, 9] array with the [9, 64] weights is the specification's product. -/
theorem dot9_eq_lin (x : FVec Ideal S100000x9 .f32) (w : FVec Ideal S9x64 .f32) :
    Host.dotGeneral dot_S100000x9_S9x64_S100000x64_1_0_0_1_n_n none x w = Cert.Spec.lin x w := by
  funext i
  have h := ReadP.val_main_v4_apply x w i
  unfold ReadP.val_main_v4 at h
  rw [h]
  unfold Cert.Spec.lin
  refine Finset.sum_congr rfl fun k _ => ?_
  have el : ReadP.lidx_main_v4 i k = ix2 (i 0) k :=
    funext fun a => Fin.ext (by match a with | ⟨0, _⟩ => rfl | ⟨1, _⟩ => rfl)
  have er : ReadP.ridx_main_v4 i k = ix2 k (i 1) :=
    funext fun a => Fin.ext (by match a with | ⟨0, _⟩ => rfl | ⟨1, _⟩ => rfl)
  rw [el, er]
  rfl

/-- The second layer's product of a [100000, 64] array with the [64, 32] weights is the specification's product. -/
theorem dot64_eq_lin (x : FVec Ideal S100000x64 .f32) (w : FVec Ideal S64x32 .f32) :
    Host.dotGeneral dot_S100000x64_S64x32_S100000x32_1_0_0_1_n_n none x w = Cert.Spec.lin x w := by
  funext i
  simp only [Host.dotGeneral]
  rw [Ideal.dotGeneral_apply, ← Equiv.sum_comp (ValueIdx.contrEquiv1 dot_S100000x64_S64x32_S100000x32_1_0_0_1_n_n 64 rfl rfl).symm]
  unfold Cert.Spec.lin
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx i ((ValueIdx.contrEquiv1 dot_S100000x64_S64x32_S100000x32_1_0_0_1_n_n 64 rfl rfl).symm k) = ix2 (i 0) k :=
    funext fun a => Fin.ext (by
      match a with
      | ⟨0, _⟩ => exact ReadP.lhs_main_v48_0 _ _
      | ⟨1, _⟩ => exact (ReadP.lhs_main_v48_1 _ _).trans hk)
  have er : dot_S100000x64_S64x32_S100000x32_1_0_0_1_n_n.rhsIdx i ((ValueIdx.contrEquiv1 dot_S100000x64_S64x32_S100000x32_1_0_0_1_n_n 64 rfl rfl).symm k) = ix2 k (i 1) :=
    funext fun a => Fin.ext (by
      match a with
      | ⟨0, _⟩ => exact (ReadP.rhs_main_v48_0 _ _).trans hk
      | ⟨1, _⟩ => exact ReadP.rhs_main_v48_1 _ _)
  rw [el, er]
  rfl

/-- The first layer's bias and clip: at any row array r holding the bias's entries, it is the specification's. -/
theorem biasRelu64 (a : FVec Ideal S100000x64 .f32) (b : FVec Ideal S64 .f32) (r : FVec Ideal S1x64 .f32)
    (hr : ∀ j : Fin 64, r (ix2 0 j) = b (ix1 j)) :
    maximumf (addf a (broadcastInDim S100000x64 ![0, 1] bcast_S1x64_S100000x64_0_1 (broadcastInDim S1x64 ![1] bcast_S64_S1x64_1 b)))
        (broadcastInDim S100000x64 ![] bcast_S_S100000x64 (constant S_ .f32 0x00000000#32))
      = Cert.Spec.biasRelu a r := by
  funext i
  have h45 := ReadP.val_main_v45_apply (F := Ideal) b i
  have h44 := ReadP.val_main_v44_apply (F := Ideal) b (ReadP.idx_main_v45 i)
  unfold ReadP.val_main_v45 ReadP.val_main_v44 at h45
  unfold ReadP.val_main_v44 at h44
  have hz := ReadP.val_main_call1_v0_apply (F := Ideal) i
  unfold ReadP.val_main_call1_v0 ReadP.val_main_call1_cst at hz
  show max (a i + _) _ = _
  rw [h45, h44, hz]
  unfold Cert.Spec.biasRelu
  rw [hr (i 1)]
  show max (a i + b _) (Ideal.ofBits .f32 0x00000000#32) = max (a i + b _) 0
  rw [Ideal.ofBits_zero_f32]
  exact congrArg (fun t => max (a i + b t) 0) (funext fun d => Fin.ext (by match d with | ⟨0, _⟩ => rfl))

/-- The second layer's bias and clip, the same at width 32. -/
theorem biasRelu32 (a : FVec Ideal S100000x32 .f32) (b : FVec Ideal S32 .f32) (r : FVec Ideal S1x32 .f32)
    (hr : ∀ j : Fin 32, r (ix2 0 j) = b (ix1 j)) :
    maximumf (addf a (broadcastInDim S100000x32 ![0, 1] bcast_S1x32_S100000x32_0_1 (broadcastInDim S1x32 ![1] bcast_S32_S1x32_1 b)))
        (broadcastInDim S100000x32 ![] bcast_S_S100000x32 (constant S_ .f32 0x00000000#32))
      = Cert.Spec.biasRelu a r := by
  funext i
  have h89 := ReadP.val_main_v89_apply (F := Ideal) b i
  have h88 := ReadP.val_main_v88_apply (F := Ideal) b (ReadP.idx_main_v89 i)
  unfold ReadP.val_main_v89 ReadP.val_main_v88 at h89
  unfold ReadP.val_main_v88 at h88
  have hz := ReadP.val_main_call3_v0_apply (F := Ideal) i
  unfold ReadP.val_main_call3_v0 ReadP.val_main_call3_cst at hz
  show max (a i + _) _ = _
  rw [h89, h88, hz]
  unfold Cert.Spec.biasRelu
  rw [hr (i 1)]
  show max (a i + b _) (Ideal.ofBits .f32 0x00000000#32) = max (a i + b _) 0
  rw [Ideal.ofBits_zero_f32]
  exact congrArg (fun t => max (a i + b t) 0) (funext fun d => Fin.ext (by match d with | ⟨0, _⟩ => rfl))

/-- The sum over the rows from the initial value zero, placed as a row, is the specification's column sums. -/
theorem colSum32 (X : FVec Ideal S100000x32 .f32) :
    broadcastInDim S1x32 ![1] bcast_S32_S1x32_1
        (Host.reduceAdd X (constant S_ .f32 0x00000000#32) reducesTo_S100000x32_S32_d0 h_S_)
      = Cert.Spec.colSum X := by
  funext i
  rw [broadcastInDim_apply _ bcast_S32_S1x32_1 _ i (ReadP.idx_main_v93 i) (fun a => match a with
    | ⟨0, _⟩ => by show (i 1).val = if (32 : Nat) = 1 then 0 else (i 1).val; rw [if_neg (by decide)])]
  simp only [Host.reduceAdd, Ideal.hostReduceAdd_def]
  rw [Ideal.hostReduceAdd_single reducesTo_S100000x32_S32_d0 (by decide)]
  show Ideal.ofBits .f32 0x00000000#32 + _ = _
  rw [Ideal.ofBits_zero_f32, zero_add]
  unfold Cert.Spec.colSum
  refine Finset.sum_congr rfl fun k _ => ?_
  exact congrArg X (funext fun a => Fin.ext (by match a with | ⟨0, _⟩ => rfl | ⟨1, _⟩ => rfl))

end Cert.ReferenceIdeal.HandVal

end
-- ==== Proof.Val.RefValue.lean ====
/-
  The reference's term as the nest of the shared host functions and its own products, bias-and-clip stages and row sum;
  then, over the extended reals, as the specification's functions of the arguments.
-/
import proofs.«155399_j9225589751902_1_alg».proof.Proof.Val.RefLemmas
import proofs.«155399_j9225589751902_1_alg».proof.Proof.Val.Host
import proofs.«155399_j9225589751902_1_alg».proof.Proof.Gen.KernelIdeal
import Idealize.ShloMosaic.Lib.ValueLayout

noncomputable section

namespace Cert.ReferenceIdeal.HandVal

open Cert.ReferenceIdeal Cert.ReferenceIdeal.Gen Idealize.ShloMosaic Idealize.ShloMosaic.ValueIdx Idealize.ShloMosaic.TcCoe Idealize.SL.Sem

section generic

variable {F : FTy → Type} [FloatOps F]

/-! The edge endpoints and the edge weights, which the reference computes once per layer, are the shared functions. -/

theorem src1 (x1 : Vec F S2x1600000 .i32) : ReadP.val_main_v6 (F := F) x1 = Cert.HostFn.srcIdx x1 := rfl
theorem src2 (x1 : Vec F S2x1600000 .i32) : ReadP.val_main_v50 (F := F) x1 = Cert.HostFn.srcIdx x1 := rfl
theorem dst1 (x1 : Vec F S2x1600000 .i32) : ReadP.val_main_v7 (F := F) x1 = Cert.HostFn.dstIdx x1 := rfl
theorem dst2 (x1 : Vec F S2x1600000 .i32) : ReadP.val_main_v51 (F := F) x1 = Cert.HostFn.dstIdx x1 := rfl
theorem norm1 (x1 : Vec F S2x1600000 .i32) : ReadP.val_main_v30 (F := F) x1 = Cert.HostFn.edgeNorm x1 := rfl
theorem norm2 (x1 : Vec F S2x1600000 .i32) : ReadP.val_main_v74 (F := F) x1 = Cert.HostFn.edgeNorm x1 := rfl

/-! Each layer's neighbourhood sum is the shared aggregation of that layer's product. -/

theorem agg1 (x0 : Vec F S100000x9 .f32) (x1 : Vec F S2x1600000 .i32) (x2 : Vec F S9x64 .f32) :
    ReadP.val_main_v43 (F := F) x0 x1 x2 = Cert.HostFn.agg64 x1 (ReadP.val_main_v4 (F := F) x0 x2) := rfl

theorem agg2 (x0 : Vec F S100000x9 .f32) (x1 : Vec F S2x1600000 .i32) (x2 : Vec F S9x64 .f32) (x3 : Vec F S64 .f32) (x4 : Vec F S64x32 .f32) :
    ReadP.val_main_v87 (F := F) x0 x1 x2 x3 x4 = Cert.HostFn.agg32 x1 (ReadP.val_main_v48 (F := F) x0 x1 x2 x3 x4) := rfl

/-! The stages between them, as printed. -/

theorem stage4 (x0 : Vec F S100000x9 .f32) (x2 : Vec F S9x64 .f32) :
    ReadP.val_main_v4 (F := F) x0 x2 = Host.dotGeneral dot_S100000x9_S9x64_S100000x64_1_0_0_1_n_n none x0 x2 := rfl

theorem stage47 (x0 : Vec F S100000x9 .f32) (x1 : Vec F S2x1600000 .i32) (x2 : Vec F S9x64 .f32) (x3 : Vec F S64 .f32) :
    ReadP.val_main_v47 (F := F) x0 x1 x2 x3
      = maximumf (addf (ReadP.val_main_v43 (F := F) x0 x1 x2)
          (broadcastInDim S100000x64 ![0, 1] bcast_S1x64_S100000x64_0_1 (broadcastInDim S1x64 ![1] bcast_S64_S1x64_1 x3)))
          (broadcastInDim S100000x64 ![] bcast_S_S100000x64 (constant S_ .f32 0x00000000#32)) := rfl

theorem stage48 (x0 : Vec F S100000x9 .f32) (x1 : Vec F S2x1600000 .i32) (x2 : Vec F S9x64 .f32) (x3 : Vec F S64 .f32) (x4 : Vec F S64x32 .f32) :
    ReadP.val_main_v48 (F := F) x0 x1 x2 x3 x4
      = Host.dotGeneral dot_S100000x64_S64x32_S100000x32_1_0_0_1_n_n none (ReadP.val_main_v47 (F := F) x0 x1 x2 x3) x4 := rfl

theorem stage91 (x0 : Vec F S100000x9 .f32) (x1 : Vec F S2x1600000 .i32) (x2 : Vec F S9x64 .f32) (x3 : Vec F S64 .f32) (x4 : Vec F S64x32 .f32) (x5 : Vec F S32 .f32) :
    ReadP.val_main_v91 (F := F) x0 x1 x2 x3 x4 x5
      = maximumf (addf (ReadP.val_main_v87 (F := F) x0 x1 x2 x3 x4)
          (broadcastInDim S100000x32 ![0, 1] bcast_S1x32_S100000x32_0_1 (broadcastInDim S1x32 ![1] bcast_S32_S1x32_1 x5)))
          (broadcastInDim S100000x32 ![] bcast_S_S100000x32 (constant S_ .f32 0x00000000#32)) := rfl

theorem stage93 (x0 : Vec F S100000x9 .f32) (x1 : Vec F S2x1600000 .i32) (x2 : Vec F S9x64 .f32) (x3 : Vec F S64 .f32) (x4 : Vec F S64x32 .f32) (x5 : Vec F S32 .f32) :
    ReadP.val_main_v93 (F := F) x0 x1 x2 x3 x4 x5
      = broadcastInDim S1x32 ![1] bcast_S32_S1x32_1
          (Host.reduceAdd (ReadP.val_main_v91 (F := F) x0 x1 x2 x3 x4 x5) (constant S_ .f32 0x00000000#32) reducesTo_S100000x32_S32_d0 h_S_) := rfl

/-- The read-out after the row sum is the shared tail. -/
theorem stage99 (x0 : Vec F S100000x9 .f32) (x1 : Vec F S2x1600000 .i32) (x2 : Vec F S9x64 .f32) (x3 : Vec F S64 .f32) (x4 : Vec F S64x32 .f32) (x5 : Vec F S32 .f32) (x6 : Vec F S32x1 .f32) (x7 : Vec F S1 .f32) :
    ReadP.val_main_v99 (F := F) x0 x1 x2 x3 x4 x5 x6 x7
      = Cert.HostFn.tailFn (ReadP.val_main_v93 (F := F) x0 x1 x2 x3 x4 x5) x6 x7 := rfl

/-- The reference's term as the nest of the shared functions and its own stages. -/
theorem ref_nest (x0 : Vec F S100000x9 .f32) (x1 : Vec F S2x1600000 .i32) (x2 : Vec F S9x64 .f32) (x3 : Vec F S64 .f32) (x4 : Vec F S64x32 .f32) (x5 : Vec F S32 .f32) (x6 : Vec F S32x1 .f32) (x7 : Vec F S1 .f32) :
    ReadP.val_main_v99 (F := F) x0 x1 x2 x3 x4 x5 x6 x7
      = Cert.HostFn.tailFn
          (broadcastInDim S1x32 ![1] bcast_S32_S1x32_1
            (Host.reduceAdd
              (maximumf (addf
                  (Cert.HostFn.agg32 x1
                    (Host.dotGeneral dot_S100000x64_S64x32_S100000x32_1_0_0_1_n_n none
                      (maximumf (addf
                          (Cert.HostFn.agg64 x1 (Host.dotGeneral dot_S100000x9_S9x64_S100000x64_1_0_0_1_n_n none x0 x2))
                          (broadcastInDim S100000x64 ![0, 1] bcast_S1x64_S100000x64_0_1 (broadcastInDim S1x64 ![1] bcast_S64_S1x64_1 x3)))
                        (broadcastInDim S100000x64 ![] bcast_S_S100000x64 (constant S_ .f32 0x00000000#32)))
                      x4))
                  (broadcastInDim S100000x32 ![0, 1] bcast_S1x32_S100000x32_0_1 (broadcastInDim S1x32 ![1] bcast_S32_S1x32_1 x5)))
                (broadcastInDim S100000x32 ![] bcast_S_S100000x32 (constant S_ .f32 0x00000000#32)))
              (constant S_ .f32 0x00000000#32) reducesTo_S100000x32_S32_d0 h_S_))
          x6 x7 := by
  rw [stage99, stage93, stage91, agg2, stage48, stage47, agg1, stage4]

end generic

/-! Over the extended reals. -/

/-- The bias as a one-row array holds the bias's entries. -/
theorem row64_apply (b : Vec Ideal S64 .f32) (j : Fin 64) : Cert.HostFn.row64 b (ix2 0 j) = b (ix1 j) := by
  unfold Cert.HostFn.row64
  exact shapeCast_a_1a_apply b _ 0 j

theorem row32_apply (b : Vec Ideal S32 .f32) (j : Fin 32) : Cert.HostFn.row32 b (ix2 0 j) = b (ix1 j) := by
  unfold Cert.HostFn.row32
  exact shapeCast_a_1a_apply b _ 0 j

/-- The reference's last stage, as the specification's functions and the shared host functions of the arguments. -/
theorem ref_value_of (x0 : Vec Ideal S100000x9 .f32) (x1 : Vec Ideal S2x1600000 .i32) (x2 : Vec Ideal S9x64 .f32) (x3 : Vec Ideal S64 .f32) (x4 : Vec Ideal S64x32 .f32) (x5 : Vec Ideal S32 .f32) (x6 : Vec Ideal S32x1 .f32) (x7 : Vec Ideal S1 .f32) :
    ReadP.val_main_v99 (F := Ideal) x0 x1 x2 x3 x4 x5 x6 x7
      = Cert.HostFn.tailFn
          (Cert.Spec.colSum
            (Cert.Spec.biasRelu
              (Cert.HostFn.agg32 x1
                (Cert.Spec.lin
                  (Cert.Spec.biasRelu (Cert.HostFn.agg64 x1 (Cert.Spec.lin x0 x2)) (Cert.HostFn.row64 x3))
                  x4))
              (Cert.HostFn.row32 x5)))
          x6 x7 := by
  rw [ref_nest, dot9_eq_lin, biasRelu64 _ x3 (Cert.HostFn.row64 x3) (row64_apply x3), dot64_eq_lin,
    biasRelu32 _ x5 (Cert.HostFn.row32 x5) (row32_apply x5), colSum32]

/-- The reference's result is the specification's two layers between the shared host functions, read out by the shared
    tail, of the arguments' launch contents. -/
theorem ref_value (m : (ℓ : Loc nD τ sig) → Buf (Elt Ideal) ℓ) (c : Dev nD) :
    Cert.ReferenceIdeal.ValueP.res_main_v99 (F := Ideal) m c
      = Cert.HostFn.tailFn
          (Cert.Spec.colSum
            (Cert.Spec.biasRelu
              (Cert.HostFn.agg32 (m ((c.tc : Thread nD τ).loc main_arg1))
                (Cert.Spec.lin
                  (Cert.Spec.biasRelu
                    (Cert.HostFn.agg64 (m ((c.tc : Thread nD τ).loc main_arg1))
                      (Cert.Spec.lin (m ((c.tc : Thread nD τ).loc main_arg0)) (m ((c.tc : Thread nD τ).loc main_arg2))))
                    (Cert.HostFn.row64 (m ((c.tc : Thread nD τ).loc main_arg3))))
                  (m ((c.tc : Thread nD τ).loc main_arg4))))
              (Cert.HostFn.row32 (m ((c.tc : Thread nD τ).loc main_arg5)))))
          (m ((c.tc : Thread nD τ).loc main_arg6)) (m ((c.tc : Thread nD τ).loc main_arg7)) :=
  (ReadP.val_main_v99_eq m c).trans (ref_value_of _ _ _ _ _ _ _ _)

end Cert.ReferenceIdeal.HandVal

end
-- ==== Proof.lean ====
/-
  The certificate's claims, assembled.

  Both kernel programs (the word-level one and its idealization are the same printed text) run as six stretches of host
  operations and four kernel regions; their frames are the run of that list of segments, every argument array read back
  through the fold of buffer contents to the launch memory. The reference is a host program: its frame is its run with the
  result dropped. The idealization rewrote nothing, so it preserves the kernel trivially.

  The algebraic claim: at the extended reals the kernel's result is the shared tail (divide by the node count, the final
  linear map) of the column sums of relu(agg₂ + b₂), where agg₂ is the graph aggregation of relu(agg₁ + b₁) · W₂ and agg₁
  that of x · W₁ — each matrix product a sum over the contracted coordinate, each region's row blocks tiling its array,
  the ten partial column sums regrouped into one. The reference computes the same nest with whole-array operations; the
  aggregations, the bias rows and the tail are the same host operations in both programs and are carried as opaque functions.
-/
import proofs.«155399_j9225589751902_1_alg».proof.Defs
import proofs.«155399_j9225589751902_1_alg».proof.Proof.Gen.Kernel
import proofs.«155399_j9225589751902_1_alg».proof.Proof.Gen.KernelIdeal
import proofs.«155399_j9225589751902_1_alg».proof.Proof.Gen.ReferenceIdeal
import proofs.«155399_j9225589751902_1_alg».proof.Proof.Gen.Pre_finite_inputs
import proofs.«155399_j9225589751902_1_alg».proof.Proof.K.Run
import proofs.«155399_j9225589751902_1_alg».proof.Proof.KI.Run
import proofs.«155399_j9225589751902_1_alg».proof.Proof.RefRunP
import proofs.«155399_j9225589751902_1_alg».proof.Proof.Val.KerValue
import proofs.«155399_j9225589751902_1_alg».proof.Proof.Val.RefValue
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

theorem preserves : Cert.preserves_Kernel_KernelIdeal := trivial

open Cert.KernelIdeal.Hand Cert.KernelIdeal.HandVal in
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.W10 (F := Ideal) m c (Proc.devRef .tc Cert.KernelIdeal.main_v67), ?_, ?_⟩
  · exact Cert.KernelIdeal.Hand.run_all m ρ fun s h c =>
      ⟨h c _ (mem_uc Cert.KernelIdeal.main_v67 (by decide)),
       (h c _ (mem_uc Cert.KernelIdeal.main_arg0 (by decide))).trans (W10_main_arg0 m c),
       (h c _ (mem_uc Cert.KernelIdeal.main_arg1 (by decide))).trans (W10_main_arg1 m c),
       (h c _ (mem_uc Cert.KernelIdeal.main_arg2 (by decide))).trans (W10_main_arg2 m c),
       (h c _ (mem_uc Cert.KernelIdeal.main_arg3 (by decide))).trans (W10_main_arg3 m c),
       (h c _ (mem_uc Cert.KernelIdeal.main_arg4 (by decide))).trans (W10_main_arg4 m c),
       (h c _ (mem_uc Cert.KernelIdeal.main_arg5 (by decide))).trans (W10_main_arg5 m c),
       (h c _ (mem_uc Cert.KernelIdeal.main_arg6 (by decide))).trans (W10_main_arg6 m c),
       (h c _ (mem_uc Cert.KernelIdeal.main_arg7 (by decide))).trans (W10_main_arg7 m c)⟩
  · refine (θ_run Cert.ReferenceIdeal.defs _ _).mono (fun _ h c => ⟨(h c).1.trans ?_, (h c).2⟩)
      (Cert.ReferenceIdeal.ValueP.run (F := Ideal) m' ρ')
    beta_reduce
    rw [Cert.ReferenceIdeal.HandVal.ref_value m' c, Cert.KernelIdeal.HandVal.ker_value m c,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
